-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S192x64 : Shape := ⟨2, ![192, 64]⟩
abbrev S64 : Shape := ⟨1, ![64]⟩
abbrev S64x64 : Shape := ⟨2, ![64, 64]⟩
abbrev S9x64 : Shape := ⟨2, ![9, 64]⟩
abbrev S50000x64 : Shape := ⟨2, ![50000, 64]⟩
abbrev S500000x64 : Shape := ⟨2, ![500000, 64]⟩
abbrev S500000x9 : Shape := ⟨2, ![500000, 9]⟩
abbrev S500000 : Shape := ⟨1, ![500000]⟩
abbrev S_ : Shape := ⟨0, ![]⟩

class Facts : Prop where
  bcast_S_S192x64 : S_.BroadcastsInDim S192x64 (![] : Fin 0 → Fin S192x64.rank)
  reducesTo_S192x64_S_d0_1 : S192x64.ReducesTo [0, 1] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S9x64 : S_.BroadcastsInDim S9x64 (![] : Fin 0 → Fin S9x64.rank)
  reducesTo_S9x64_S_d0_1 : S9x64.ReducesTo [0, 1] S_
  bcast_S_S50000x64 : S_.BroadcastsInDim S50000x64 (![] : Fin 0 → Fin S50000x64.rank)
  reducesTo_S50000x64_S_d0_1 : S50000x64.ReducesTo [0, 1] S_
  bcast_S_S500000x64 : S_.BroadcastsInDim S500000x64 (![] : Fin 0 → Fin S500000x64.rank)
  reducesTo_S500000x64_S_d0_1 : S500000x64.ReducesTo [0, 1] S_
  bcast_S_S500000x9 : S_.BroadcastsInDim S500000x9 (![] : Fin 0 → Fin S500000x9.rank)
  reducesTo_S500000x9_S_d0_1 : S500000x9.ReducesTo [0, 1] S_

variable [Facts]

def fn_part6 {F : FTy → Type} [FloatOps F] (main_v98 : IVec S_ 1) (main_v101 : IVec S500000x9 1) (main_c_39 : IVec S_ 1) : IVec S_ 1 :=
  let main_v102 : IVec S_ 1 := (fun x v => Host.reduce IntOp.andi x v reducesTo_S500000x9_S_d0_1 h_S_) main_v101 main_c_39
  let main_v103 : IVec S_ 1 := andi main_v98 main_v102
  main_v103

def fn_part5 {F : FTy → Type} [FloatOps F] (main_arg18 : FVec F S50000x64 .f32) (main_arg19 : FVec F S500000x64 .f32) (main_arg20 : FVec F S500000x9 .f32) (main_v83 : IVec S_ 1) (main_v84 : FVec F S9x64 .f32) (main_cst_32 : FVec F S_ .f32) : IVec S_ 1 :=
  let main_v85 : FVec F S9x64 .f32 := broadcastInDim S9x64 ![] bcast_S_S9x64 main_cst_32
  let main_v86 : IVec S9x64 1 := cmpf .olt main_v84 main_v85
  let main_c_33 : IVec S_ 1 := constantI S_ 1 1#1
  let main_v87 : IVec S_ 1 := (fun x v => Host.reduce IntOp.andi x v reducesTo_S9x64_S_d0_1 h_S_) main_v86 main_c_33
  let main_v88 : IVec S_ 1 := andi main_v83 main_v87
  let main_v89 : FVec F S50000x64 .f32 := Host.absf main_arg18
  let main_cst_34 : FVec F S_ .f32 := constant S_ .f32 0x7F800000#32
  let main_v90 : FVec F S50000x64 .f32 := broadcastInDim S50000x64 ![] bcast_S_S50000x64 main_cst_34
  let main_v91 : IVec S50000x64 1 := cmpf .olt main_v89 main_v90
  let main_c_35 : IVec S_ 1 := constantI S_ 1 1#1
  let main_v92 : IVec S_ 1 := (fun x v => Host.reduce IntOp.andi x v reducesTo_S50000x64_S_d0_1 h_S_) main_v91 main_c_35
  let main_v93 : IVec S_ 1 := andi main_v88 main_v92
  let main_v94 : FVec F S500000x64 .f32 := Host.absf main_arg19
  let main_cst_36 : FVec F S_ .f32 := constant S_ .f32 0x7F800000#32
  let main_v95 : FVec F S500000x64 .f32 := broadcastInDim S500000x64 ![] bcast_S_S500000x64 main_cst_36
  let main_v96 : IVec S500000x64 1 := cmpf .olt main_v94 main_v95
  let main_c_37 : IVec S_ 1 := constantI S_ 1 1#1
  let main_v97 : IVec S_ 1 := (fun x v => Host.reduce IntOp.andi x v reducesTo_S500000x64_S_d0_1 h_S_) main_v96 main_c_37
  let main_v98 : IVec S_ 1 := andi main_v93 main_v97
  let main_v99 : FVec F S500000x9 .f32 := Host.absf main_arg20
  let main_cst_38 : FVec F S_ .f32 := constant S_ .f32 0x7F800000#32
  let main_v100 : FVec F S500000x9 .f32 := broadcastInDim S500000x9 ![] bcast_S_S500000x9 main_cst_38
  let main_v101 : IVec S500000x9 1 := cmpf .olt main_v99 main_v100
  let main_c_39 : IVec S_ 1 := constantI S_ 1 1#1
  fn_part6 (F := F) main_v98 main_v101 main_c_39

def fn_part4 {F : FTy → Type} [FloatOps F] (main_arg14 : FVec F S64 .f32) (main_arg15 : FVec F S64x64 .f32) (main_arg16 : FVec F S64 .f32) (main_arg17 : FVec F S9x64 .f32) (main_arg18 : FVec F S50000x64 .f32) (main_arg19 : FVec F S500000x64 .f32) (main_arg20 : FVec F S500000x9 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg15
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S9x64 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S64x64 .f32) (main_arg12 : FVec F S64 .f32) (main_arg13 : FVec F S192x64 .f32) (main_arg14 : FVec F S64 .f32) (main_arg15 : FVec F S64x64 .f32) (main_arg16 : FVec F S64 .f32) (main_arg17 : FVec F S9x64 .f32) (main_arg18 : FVec F S50000x64 .f32) (main_arg19 : FVec F S500000x64 .f32) (main_arg20 : FVec F S500000x9 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S192x64 .f32 := Host.absf main_arg13
  let main_cst_24 : FVec F S_ .f32 := constant S_ .f32 0x7F800000#32
  let main_v65 : FVec F S192x64 .f32 := broadcastInDim S192x64 ![] bcast_S_S192x64 main_cst_24
  let main_v66 : IVec S192x64 1 := cmpf .olt main_v64 main_v65
  let main_c_25 : IVec S_ 1 := constantI S_ 1 1#1
  let main_v67 : IVec S_ 1 := (fun x v => Host.reduce IntOp.andi x v reducesTo_S192x64_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S64 .f32) (main_arg8 : FVec F S9x64 .f32) (main_arg9 : FVec F S192x64 .f32) (main_arg10 : FVec F S64 .f32) (main_arg11 : FVec F S64x64 .f32) (main_arg12 : FVec F S64 .f32) (main_arg13 : FVec F S192x64 .f32) (main_arg14 : FVec F S64 .f32) (main_arg15 : FVec F S64x64 .f32) (main_arg16 : FVec F S64 .f32) (main_arg17 : FVec F S9x64 .f32) (main_arg18 : FVec F S50000x64 .f32) (main_arg19 : FVec F S500000x64 .f32) (main_arg20 : FVec F S500000x9 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S9x64 .f32 := Host.absf main_arg8
  let main_cst_14 : FVec F S_ .f32 := constant S_ .f32 0x7F800000#32
  let main_v40 : FVec F S9x64 .f32 := broadcastInDim S9x64 ![] bcast_S_S9x64 main_cst_14
  let main_v41 : IVec S9x64 1 := cmpf .olt main_v39 main_v40
  let main_c_15 : IVec S_ 1 := constantI S_ 1 1#1
  let main_v42 : IVec S_ 1 := (fun x v => Host.reduce IntOp.andi x v reducesTo_S9x64_S_d0_1 h_S_) main_v41 main_c_15
  let main_v43 : IVec S_ 1 := andi main_v38 main_v42
  let main_v44 : FVec F S192x64 .f32 := Host.absf main_arg9
  let main_cst_16 : FVec F S_ .f32 := constant S_ .f32 0x7F800000#32
  let main_v45 : FVec F S192x64 .f32 := broadcastInDim S192x64 ![] bcast_S_S192x64 main_cst_16
  let main_v46 : IVec S192x64 1 := cmpf .olt main_v44 main_v45
  let main_c_17 : IVec S_ 1 := constantI S_ 1 1#1
  let main_v47 : IVec S_ 1 := (fun x v => Host.reduce IntOp.andi x v reducesTo_S192x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S192x64 .f32) (main_arg5 : FVec F S64 .f32) (main_arg6 : FVec F S64x64 .f32) (main_arg7 : FVec F S64 .f32) (main_arg8 : FVec F S9x64 .f32) (main_arg9 : FVec F S192x64 .f32) (main_arg10 : FVec F S64 .f32) (main_arg11 : FVec F S64x64 .f32) (main_arg12 : FVec F S64 .f32) (main_arg13 : FVec F S192x64 .f32) (main_arg14 : FVec F S64 .f32) (main_arg15 : FVec F S64x64 .f32) (main_arg16 : FVec F S64 .f32) (main_arg17 : FVec F S9x64 .f32) (main_arg18 : FVec F S50000x64 .f32) (main_arg19 : FVec F S500000x64 .f32) (main_arg20 : FVec F S500000x9 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S192x64 .f32 := Host.absf main_arg4
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S192x64 .f32) (main_arg1 : FVec F S64 .f32) (main_arg2 : FVec F S64x64 .f32) (main_arg3 : FVec F S64 .f32) (main_arg4 : FVec F S192x64 .f32) (main_arg5 : FVec F S64 .f32) (main_arg6 : FVec F S64x64 .f32) (main_arg7 : FVec F S64 .f32) (main_arg8 : FVec F S9x64 .f32) (main_arg9 : FVec F S192x64 .f32) (main_arg10 : FVec F S64 .f32) (main_arg11 : FVec F S64x64 .f32) (main_arg12 : FVec F S64 .f32) (main_arg13 : FVec F S192x64 .f32) (main_arg14 : FVec F S64 .f32) (main_arg15 : FVec F S64x64 .f32) (main_arg16 : FVec F S64 .f32) (main_arg17 : FVec F S9x64 .f32) (main_arg18 : FVec F S50000x64 .f32) (main_arg19 : FVec F S500000x64 .f32) (main_arg20 : FVec F S500000x9 .f32) (main_arg21 : IVec S500000 32) (main_arg22 : IVec S500000 32) : IVec S_ 1 :=
  let main_v0 : FVec F S192x64 .f32 := Host.absf main_arg0
  let main_cst : FVec F S_ .f32 := constant S_ .f32 0x7F800000#32
  let main_v1 : FVec F S192x64 .f32 := broadcastInDim S192x64 ![] bcast_S_S192x64 main_cst
  let main_v2 : IVec S192x64 1 := cmpf .olt main_v0 main_v1
  let main_c : IVec S_ 1 := constantI S_ 1 1#1
  let main_v3 : IVec S_ 1 := (fun x v => Host.reduce IntOp.andi x v reducesTo_S192x64_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S192x64 : Shape := ⟨2, ![192, 64]⟩
abbrev S64 : Shape := ⟨1, ![64]⟩
abbrev S64x64 : Shape := ⟨2, ![64, 64]⟩
abbrev S9x64 : Shape := ⟨2, ![9, 64]⟩
abbrev S50000x64 : Shape := ⟨2, ![50000, 64]⟩
abbrev S500000x64 : Shape := ⟨2, ![500000, 64]⟩
abbrev S500000x9 : Shape := ⟨2, ![500000, 9]⟩
abbrev S500000 : Shape := ⟨1, ![500000]⟩
abbrev S_ : Shape := ⟨0, ![]⟩
abbrev S500000x1 : Shape := ⟨2, ![500000, 1]⟩
abbrev S1x64 : Shape := ⟨2, ![1, 64]⟩
abbrev S2000x64 : Shape := ⟨2, ![2000, 64]⟩
abbrev S2000x9 : Shape := ⟨2, ![2000, 9]⟩
abbrev S2000x192 : Shape := ⟨2, ![2000, 192]⟩

abbrev nBuf : Space → Nat
  | .hbm => 66
  | .vmem => 30
  | .smem => 0
  | _ => 0

abbrev bufTy : (tb : Table) → Fin (tcTables nBuf tb) → BufTy
  | .hbm, ⟨0, _⟩ => ⟨S192x64, .f32⟩
  | .hbm, ⟨1, _⟩ => ⟨S64, .f32⟩
  | .hbm, ⟨2, _⟩ => ⟨S64x64, .f32⟩
  | .hbm, ⟨3, _⟩ => ⟨S64, .f32⟩
  | .hbm, ⟨4, _⟩ => ⟨S192x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S9x64, .f32⟩
  | .hbm, ⟨9, _⟩ => ⟨S192x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S192x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S9x64, .f32⟩
  | .hbm, ⟨18, _⟩ => ⟨S50000x64, .f32⟩
  | .hbm, ⟨19, _⟩ => ⟨S500000x64, .f32⟩
  | .hbm, ⟨20, _⟩ => ⟨S500000x9, .f32⟩
  | .hbm, ⟨21, _⟩ => ⟨S500000, .i32⟩
  | .hbm, ⟨22, _⟩ => ⟨S500000, .i32⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S500000, .i32⟩
  | .hbm, ⟨30, _⟩ => ⟨S500000x1, .i32⟩
  | .hbm, ⟨31, _⟩ => ⟨S500000x64, .f32⟩
  | .hbm, ⟨32, _⟩ => ⟨S_, .i32⟩
  | .hbm, ⟨33, _⟩ => ⟨S500000, .i32⟩
  | .hbm, ⟨34, _⟩ => ⟨S500000, .i1⟩
  | .hbm, ⟨35, _⟩ => ⟨S_, .i32⟩
  | .hbm, ⟨36, _⟩ => ⟨S500000, .i32⟩
  | .hbm, ⟨37, _⟩ => ⟨S500000, .i32⟩
  | .hbm, ⟨38, _⟩ => ⟨S500000, .i32⟩
  | .hbm, ⟨39, _⟩ => ⟨S500000x1, .i32⟩
  | .hbm, ⟨40, _⟩ => ⟨S500000x64, .f32⟩
  | .hbm, ⟨41, _⟩ => ⟨S192x64, .bf16⟩
  | .hbm, ⟨42, _⟩ => ⟨S64x64, .bf16⟩
  | .hbm, ⟨43, _⟩ => ⟨S192x64, .bf16⟩
  | .hbm, ⟨44, _⟩ => ⟨S64x64, .bf16⟩
  | .hbm, ⟨45, _⟩ => ⟨S9x64, .bf16⟩
  | .hbm, ⟨46, _⟩ => ⟨S192x64, .bf16⟩
  | .hbm, ⟨47, _⟩ => ⟨S64x64, .bf16⟩
  | .hbm, ⟨48, _⟩ => ⟨S192x64, .bf16⟩
  | .hbm, ⟨49, _⟩ => ⟨S64x64, .bf16⟩
  | .hbm, ⟨50, _⟩ => ⟨S9x64, .bf16⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S500000x64, .f32⟩
  | .hbm, ⟨60, _⟩ => ⟨S500000x64, .f32⟩
  | .hbm, ⟨61, _⟩ => ⟨S_, .f32⟩
  | .hbm, ⟨62, _⟩ => ⟨S50000x64, .f32⟩
  | .hbm, ⟨63, _⟩ => ⟨S500000x1, .i32⟩
  | .hbm, ⟨64, _⟩ => ⟨S50000x64, .f32⟩
  | .hbm, ⟨65, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x9, .f32⟩
  | .local _ .vmem, ⟨7, _⟩ => ⟨S2000x9, .f32⟩
  | .local _ .vmem, ⟨8, _⟩ => ⟨S192x64, .bf16⟩
  | .local _ .vmem, ⟨9, _⟩ => ⟨S1x64, .f32⟩
  | .local _ .vmem, ⟨10, _⟩ => ⟨S64x64, .bf16⟩
  | .local _ .vmem, ⟨11, _⟩ => ⟨S1x64, .f32⟩
  | .local _ .vmem, ⟨12, _⟩ => ⟨S192x64, .bf16⟩
  | .local _ .vmem, ⟨13, _⟩ => ⟨S1x64, .f32⟩
  | .local _ .vmem, ⟨14, _⟩ => ⟨S64x64, .bf16⟩
  | .local _ .vmem, ⟨15, _⟩ => ⟨S1x64, .f32⟩
  | .local _ .vmem, ⟨16, _⟩ => ⟨S9x64, .bf16⟩
  | .local _ .vmem, ⟨17, _⟩ => ⟨S192x64, .bf16⟩
  | .local _ .vmem, ⟨18, _⟩ => ⟨S1x64, .f32⟩
  | .local _ .vmem, ⟨19, _⟩ => ⟨S64x64, .bf16⟩
  | .local _ .vmem, ⟨20, _⟩ => ⟨S1x64, .f32⟩
  | .local _ .vmem, ⟨21, _⟩ => ⟨S192x64, .bf16⟩
  | .local _ .vmem, ⟨22, _⟩ => ⟨S1x64, .f32⟩
  | .local _ .vmem, ⟨23, _⟩ => ⟨S64x64, .bf16⟩
  | .local _ .vmem, ⟨24, _⟩ => ⟨S1x64, .f32⟩
  | .local _ .vmem, ⟨25, _⟩ => ⟨S9x64, .bf16⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | _, _ => ⟨S192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32_0 : Ref sig .tc := ⟨.hbm, 59, rfl⟩
abbrev main_v32_1 : Ref sig .tc := ⟨.hbm, 60, rfl⟩
abbrev main_cst : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg22_1 : Ref sig .tc := ⟨.vmem, 27, rfl⟩
abbrev cc0_stg23_0 : Ref sig .tc := ⟨.vmem, 28, rfl⟩
abbrev cc0_stg23_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem22_1 : DmaSem sig := 27
abbrev cc0_sem23_0 : DmaSem sig := 28
abbrev cc0_sem23_1 : DmaSem sig := 29

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x9 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S192x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S192x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S9x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S192x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x64 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S192x64 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64x64 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S9x64 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S2000x64 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S2000x64 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bitsLt_bf16_f32 : FTy.bits .bf16 < FTy.bits .f32
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x9_S2000x9_0_0 : ∀ a, (![0, 0] : Fin 2 → Nat) a + S2000x9.size a ≤ S2000x9.size a
  h_S2000x9 : 0 < S2000x9.numel
  concatenates_S2000x64_S2000x64_S2000x64_S2000x192_d1 : Shape.Concatenates [S2000x64, S2000x64, S2000x64] S2000x192 1
  inb_S192x64_S192x64_0_0 : ∀ a, (![0, 0] : Fin 2 → Nat) a + S192x64.size a ≤ S192x64.size a
  h_S192x64 : 0 < S192x64.numel
  shapeCasts_S192x64_S192x64 : S192x64.ShapeCasts S192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S9x64_S9x64_0_0 : ∀ a, (![0, 0] : Fin 2 → Nat) a + S9x64.size a ≤ S9x64.size a
  h_S9x64 : 0 < S9x64.numel
  shapeCasts_S9x64_S9x64 : S9x64.ShapeCasts S9x64
  bcast_S_S50000x64 : S_.BroadcastsInDim S50000x64 (![] : Fin 0 → Fin S50000x64.rank)
  gather_S50000x64_S500000x1_S500000x64_1_0_n_n_0_1_164_wf : GatherDims.WF S50000x64 S500000x1 S500000x64 [1] [0] [] [0] [] 1 ![1, 64]
  dot_S2000x192_S192x64_S2000x64_1_0_0_1_n_n_wf : DotDims.WF S2000x192 S192x64 S2000x64 [1] [0] [0] [1] [] []
  dot_S2000x64_S64x64_S2000x64_1_0_0_1_n_n_wf : DotDims.WF S2000x64 S64x64 S2000x64 [1] [0] [0] [1] [] []
  dot_S2000x9_S9x64_S2000x64_1_0_0_1_n_n_wf : DotDims.WF S2000x9 S9x64 S2000x64 [1] [0] [0] [1] [] []
  scatter_S50000x64_S500000x1_S500000x64_1_0_0_1_wf : ScatterDims.WF S50000x64 S500000x1 S500000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S500000x64.size a
  hwx0_0 : ∀ i : grid0.Coords, EltTy.bits .f32 = 32 ∨ (Rect.block (s := S500000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S500000x64.size a
  hwx0_1 : ∀ i : grid0.Coords, EltTy.bits .f32 = 32 ∨ (Rect.block (s := S500000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S500000x64.size a
  hwx0_2 : ∀ i : grid0.Coords, EltTy.bits .f32 = 32 ∨ (Rect.block (s := S500000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x9.size a ≤ S500000x9.size a
  hwx0_3 : ∀ i : grid0.Coords, EltTy.bits .f32 = 32 ∨ (Rect.block (s := S500000x9) S2000x9.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S192x64.size a ≤ S192x64.size a
  hwx0_4 : ∀ i : grid0.Coords, EltTy.bits .bf16 = 32 ∨ (Rect.block (s := S192x64) S192x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S192x64.size a ≤ S192x64.size a
  hwx0_8 : ∀ i : grid0.Coords, EltTy.bits .bf16 = 32 ∨ (Rect.block (s := S192x64) S192x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .bf16 = 32 ∨ (Rect.block (s := S64x64) S64x64.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S9x64.size a ≤ S9x64.size a
  hwx0_12 : ∀ i : grid0.Coords, EltTy.bits .bf16 = 32 ∨ (Rect.block (s := S9x64) S9x64.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S192x64.size a ≤ S192x64.size a
  hwx0_13 : ∀ i : grid0.Coords, EltTy.bits .bf16 = 32 ∨ (Rect.block (s := S192x64) S192x64.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x64.size a ≤ S64x64.size a
  hwx0_15 : ∀ i : grid0.Coords, EltTy.bits .bf16 = 32 ∨ (Rect.block (s := S64x64) S64x64.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x64.size a ≤ S1x64.size a
  hwx0_16 : ∀ i : grid0.Coords, EltTy.bits .f32 = 32 ∨ (Rect.block (s := S1x64) S1x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S192x64.size a ≤ S192x64.size a
  hwx0_17 : ∀ i : grid0.Coords, EltTy.bits .bf16 = 32 ∨ (Rect.block (s := S192x64) S192x64.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x64.size a ≤ S1x64.size a
  hwx0_18 : ∀ i : grid0.Coords, EltTy.bits .f32 = 32 ∨ (Rect.block (s := S1x64) S1x64.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S64x64.size a ≤ S64x64.size a
  hwx0_19 : ∀ i : grid0.Coords, EltTy.bits .bf16 = 32 ∨ (Rect.block (s := S64x64) S64x64.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x64.size a ≤ S1x64.size a
  hwx0_20 : ∀ i : grid0.Coords, EltTy.bits .f32 = 32 ∨ (Rect.block (s := S1x64) S1x64.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S9x64.size a ≤ S9x64.size a
  hwx0_21 : ∀ i : grid0.Coords, EltTy.bits .bf16 = 32 ∨ (Rect.block (s := S9x64) S9x64.size (cc0_transform_21 i) (hinb0_21 i)).WholeWords (EltTy.packing .bf16)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S2000x64.size a ≤ S500000x64.size a
  hwx0_22 : ∀ i : grid0.Coords, EltTy.bits .f32 = 32 ∨ (Rect.block (s := S500000x64) S2000x64.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S2000x64.size a ≤ S500000x64.size a
  hwx0_23 : ∀ i : grid0.Coords, EltTy.bits .f32 = 32 ∨ (Rect.block (s := S500000x64) S2000x64.size (cc0_transform_23 i) (hinb0_23 i)).WholeWords (EltTy.packing .f32)

variable [Facts₀]

def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def dot_S2000x192_S192x64_S2000x64_1_0_0_1_n_n : DotDims S2000x192 S192x64 S2000x64 where
  lhsContracting := [1]
  rhsContracting := [0]
  lhsNonContracting := [0]
  rhsNonContracting := [1]
  lhsBatch := []
  rhsBatch := []
  wf := dot_S2000x192_S192x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x9_S9x64_S2000x64_1_0_0_1_n_n : DotDims S2000x9 S9x64 S2000x64 where
  lhsContracting := [1]
  rhsContracting := [0]
  lhsNonContracting := [0]
  rhsNonContracting := [1]
  lhsBatch := []
  rhsBatch := []
  wf := dot_S2000x9_S9x64_S2000x64_1_0_0_1_n_n_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf

abbrev win0_0 : Pipeline.Window sig grid0 :=
  Pipeline.Window.ofSpec (Memref.whole main_v6) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg19) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg20) S2000x9.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S192x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S192x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v27) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v18) S9x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v19) S192x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v28) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v20) S64x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v29) S1x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v21) S192x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v30) S1x64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v22) S64x64.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v31) S1x64.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v23) S9x64.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v32_0) S2000x64.size cc0_transform_22 reads0_22 true false 2 stage0_22 sem0_22
    hrank0 hreads0_22 hinb0_22 nbuf0_22 (Memref.isWhole_whole _) hwx0_22 hstage0_22

abbrev win0_23 : Pipeline.Window sig grid0 :=
  Pipeline.Window.ofSpec (Memref.whole main_v32_1) S2000x64.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S192x64 : Shape := ⟨2, ![192, 64]⟩
abbrev S64 : Shape := ⟨1, ![64]⟩
abbrev S64x64 : Shape := ⟨2, ![64, 64]⟩
abbrev S9x64 : Shape := ⟨2, ![9, 64]⟩
abbrev S50000x64 : Shape := ⟨2, ![50000, 64]⟩
abbrev S500000x64 : Shape := ⟨2, ![500000, 64]⟩
abbrev S500000x9 : Shape := ⟨2, ![500000, 9]⟩
abbrev S500000 : Shape := ⟨1, ![500000]⟩
abbrev S_ : Shape := ⟨0, ![]⟩
abbrev S500000x1 : Shape := ⟨2, ![500000, 1]⟩
abbrev S500000x192 : Shape := ⟨2, ![500000, 192]⟩
abbrev S1x64 : Shape := ⟨2, ![1, 64]⟩

abbrev nBuf : Space → Nat
  | .hbm => 157
  | .vmem => 0
  | .smem => 0
  | _ => 0

abbrev hbmTy0_0 (i : Nat) : BufTy := match i % 128 with
  | 0 => ⟨S192x64, .f32⟩
  | 1 => ⟨S64, .f32⟩
  | 2 => ⟨S64x64, .f32⟩
  | 3 => ⟨S64, .f32⟩
  | 4 => ⟨S192x64, .f32⟩
  | 5 => ⟨S64, .f32⟩
  | 6 => ⟨S64x64, .f32⟩
  | 7 => ⟨S64, .f32⟩
  | 8 => ⟨S9x64, .f32⟩
  | 9 => ⟨S192x64, .f32⟩
  | 10 => ⟨S64, .f32⟩
  | 11 => ⟨S64x64, .f32⟩
  | 12 => ⟨S64, .f32⟩
  | 13 => ⟨S192x64, .f32⟩
  | 14 => ⟨S64, .f32⟩
  | 15 => ⟨S64x64, .f32⟩
  | 16 => ⟨S64, .f32⟩
  | 17 => ⟨S9x64, .f32⟩
  | 18 => ⟨S50000x64, .f32⟩
  | 19 => ⟨S500000x64, .f32⟩
  | 20 => ⟨S500000x9, .f32⟩
  | 21 => ⟨S500000, .i32⟩
  | 22 => ⟨S500000, .i32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x64, .f32⟩
  | 32 => ⟨S_, .i32⟩
  | 33 => ⟨S500000, .i32⟩
  | 34 => ⟨S500000, .i1⟩
  | 35 => ⟨S_, .i32⟩
  | 36 => ⟨S500000, .i32⟩
  | 37 => ⟨S500000, .i32⟩
  | 38 => ⟨S500000, .i32⟩
  | 39 => ⟨S500000x1, .i32⟩
  | 40 => ⟨S500000x64, .f32⟩
  | 41 => ⟨S500000x192, .f32⟩
  | 42 => ⟨S500000x64, .f32⟩
  | 43 => ⟨S1x64, .f32⟩
  | 44 => ⟨S500000x64, .f32⟩
  | 45 => ⟨S500000x64, .f32⟩
  | 46 => ⟨S500000x64, .f32⟩
  | 47 => ⟨S500000x64, .f32⟩
  | 48 => ⟨S_, .f32⟩
  | 49 => ⟨S500000x64, .f32⟩
  | 50 => ⟨S500000x64, .f32⟩
  | 51 => ⟨S_, .f32⟩
  | 52 => ⟨S500000x64, .f32⟩
  | 53 => ⟨S500000x64, .f32⟩
  | 54 => ⟨S500000x64, .f32⟩
  | 55 => ⟨S500000x64, .f32⟩
  | 56 => ⟨S1x64, .f32⟩
  | 57 => ⟨S500000x64, .f32⟩
  | 58 => ⟨S500000x64, .f32⟩
  | 59 => ⟨S500000x64, .f32⟩
  | 60 => ⟨S500000x64, .f32⟩
  | 61 => ⟨S_, .f32⟩
  | 62 => ⟨S500000x64, .f32⟩
  | 63 => ⟨S500000x64, .f32⟩
  | 64 => ⟨S_, .f32⟩
  | 65 => ⟨S500000x64, .f32⟩
  | 66 => ⟨S500000x64, .f32⟩
  | 67 => ⟨S500000x64, .f32⟩
  | 68 => ⟨S500000x64, .f32⟩
  | 69 => ⟨S1x64, .f32⟩
  | 70 => ⟨S500000x64, .f32⟩
  | 71 => ⟨S500000x64, .f32⟩
  | 72 => ⟨S500000x64, .f32⟩
  | 73 => ⟨S500000x64, .f32⟩
  | 74 => ⟨S_, .f32⟩
  | 75 => ⟨S500000x64, .f32⟩
  | 76 => ⟨S500000x64, .f32⟩
  | 77 => ⟨S_, .f32⟩
  | 78 => ⟨S500000x64, .f32⟩
  | 79 => ⟨S500000x64, .f32⟩
  | 80 => ⟨S500000x64, .f32⟩
  | 81 => ⟨S500000x64, .f32⟩
  | 82 => ⟨S1x64, .f32⟩
  | 83 => ⟨S500000x64, .f32⟩
  | 84 => ⟨S500000x64, .f32⟩
  | 85 => ⟨S500000x64, .f32⟩
  | 86 => ⟨S500000x64, .f32⟩
  | 87 => ⟨S_, .f32⟩
  | 88 => ⟨S500000x64, .f32⟩
  | 89 => ⟨S500000x64, .f32⟩
  | 90 => ⟨S_, .f32⟩
  | 91 => ⟨S500000x64, .f32⟩
  | 92 => ⟨S500000x64, .f32⟩
  | 93 => ⟨S500000x64, .f32⟩
  | 94 => ⟨S500000x64, .f32⟩
  | 95 => ⟨S500000x64, .f32⟩
  | 96 => ⟨S500000x64, .f32⟩
  | 97 => ⟨S500000x192, .f32⟩
  | 98 => ⟨S500000x64, .f32⟩
  | 99 => ⟨S1x64, .f32⟩
  | 100 => ⟨S500000x64, .f32⟩
  | 101 => ⟨S500000x64, .f32⟩
  | 102 => ⟨S500000x64, .f32⟩
  | 103 => ⟨S500000x64, .f32⟩
  | 104 => ⟨S_, .f32⟩
  | 105 => ⟨S500000x64, .f32⟩
  | 106 => ⟨S500000x64, .f32⟩
  | 107 => ⟨S_, .f32⟩
  | 108 => ⟨S500000x64, .f32⟩
  | 109 => ⟨S500000x64, .f32⟩
  | 110 => ⟨S500000x64, .f32⟩
  | 111 => ⟨S500000x64, .f32⟩
  | 112 => ⟨S1x64, .f32⟩
  | 113 => ⟨S500000x64, .f32⟩
  | 114 => ⟨S500000x64, .f32⟩
  | 115 => ⟨S500000x64, .f32⟩
  | 116 => ⟨S500000x64, .f32⟩
  | 117 => ⟨S_, .f32⟩
  | 118 => ⟨S500000x64, .f32⟩
  | 119 => ⟨S500000x64, .f32⟩
  | 120 => ⟨S_, .f32⟩
  | 121 => ⟨S500000x64, .f32⟩
  | 122 => ⟨S500000x64, .f32⟩
  | 123 => ⟨S500000x64, .f32⟩
  | 124 => ⟨S500000x64, .f32⟩
  | 125 => ⟨S1x64, .f32⟩
  | 126 => ⟨S500000x64, .f32⟩
  | 127 => ⟨S500000x64, .f32⟩
  | _ => ⟨S192x64, .f32⟩

abbrev hbmTy0_1 (i : Nat) : BufTy := match i % 128 with
  | 0 => ⟨S500000x64, .f32⟩
  | 1 => ⟨S500000x64, .f32⟩
  | 2 => ⟨S_, .f32⟩
  | 3 => ⟨S500000x64, .f32⟩
  | 4 => ⟨S500000x64, .f32⟩
  | 5 => ⟨S_, .f32⟩
  | 6 => ⟨S500000x64, .f32⟩
  | 7 => ⟨S500000x64, .f32⟩
  | 8 => ⟨S500000x64, .f32⟩
  | 9 => ⟨S500000x64, .f32⟩
  | 10 => ⟨S1x64, .f32⟩
  | 11 => ⟨S500000x64, .f32⟩
  | 12 => ⟨S500000x64, .f32⟩
  | 13 => ⟨S500000x64, .f32⟩
  | 14 => ⟨S500000x64, .f32⟩
  | 15 => ⟨S_, .f32⟩
  | 16 => ⟨S500000x64, .f32⟩
  | 17 => ⟨S500000x64, .f32⟩
  | 18 => ⟨S_, .f32⟩
  | 19 => ⟨S500000x64, .f32⟩
  | 20 => ⟨S500000x64, .f32⟩
  | 21 => ⟨S500000x64, .f32⟩
  | 22 => ⟨S500000x64, .f32⟩
  | 23 => ⟨S500000x64, .f32⟩
  | 24 => ⟨S_, .f32⟩
  | 25 => ⟨S50000x64, .f32⟩
  | 26 => ⟨S500000x1, .i32⟩
  | 27 => ⟨S50000x64, .f32⟩
  | 28 => ⟨S50000x64, .f32⟩
  | _ => ⟨S192x64, .f32⟩

abbrev hbmTy (i : Nat) : BufTy := match i / 128 with
  | 0 => hbmTy0_0 i
  | 1 => hbmTy0_1 i
  | _ => ⟨S192x64, .f32⟩

abbrev bufTy : (tb : Table) → Fin (tcTables nBuf tb) → BufTy
  | .hbm, ⟨i, _⟩ => hbmTy i
  | _, _ => ⟨S192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_call2_v0 : Ref sig .tc := ⟨.hbm, 72, rfl⟩
abbrev main_call2_v1 : Ref sig .tc := ⟨.hbm, 73, rfl⟩
abbrev main_call2_cst : Ref sig .tc := ⟨.hbm, 74, rfl⟩
abbrev main_call2_v2 : Ref sig .tc := ⟨.hbm, 75, rfl⟩
abbrev main_call2_v3 : Ref sig .tc := ⟨.hbm, 76, rfl⟩
abbrev main_call2_cst_0 : Ref sig .tc := ⟨.hbm, 77, rfl⟩
abbrev main_call2_v4 : Ref sig .tc := ⟨.hbm, 78, rfl⟩
abbrev main_call2_v5 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_cst : Ref sig .tc := ⟨.hbm, 87, rfl⟩
abbrev main_v36 : Ref sig .tc := ⟨.hbm, 88, rfl⟩
abbrev main_v37 : Ref sig .tc := ⟨.hbm, 89, rfl⟩
abbrev main_cst_3 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_call3_v0 : Ref sig .tc := ⟨.hbm, 102, rfl⟩
abbrev main_call3_v1 : Ref sig .tc := ⟨.hbm, 103, rfl⟩
abbrev main_call3_cst : Ref sig .tc := ⟨.hbm, 104, rfl⟩
abbrev main_call3_v2 : Ref sig .tc := ⟨.hbm, 105, rfl⟩
abbrev main_call3_v3 : Ref sig .tc := ⟨.hbm, 106, rfl⟩
abbrev main_call3_cst_0 : Ref sig .tc := ⟨.hbm, 107, rfl⟩
abbrev main_call3_v4 : Ref sig .tc := ⟨.hbm, 108, rfl⟩
abbrev main_call3_v5 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_call4_v0 : Ref sig .tc := ⟨.hbm, 115, rfl⟩
abbrev main_call4_v1 : Ref sig .tc := ⟨.hbm, 116, rfl⟩
abbrev main_call4_cst : Ref sig .tc := ⟨.hbm, 117, rfl⟩
abbrev main_call4_v2 : Ref sig .tc := ⟨.hbm, 118, rfl⟩
abbrev main_call4_v3 : Ref sig .tc := ⟨.hbm, 119, rfl⟩
abbrev main_call4_cst_0 : Ref sig .tc := ⟨.hbm, 120, rfl⟩
abbrev main_call4_v4 : Ref sig .tc := ⟨.hbm, 121, rfl⟩
abbrev main_call4_v5 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_call5_v0 : Ref sig .tc := ⟨.hbm, 128, rfl⟩
abbrev main_call5_v1 : Ref sig .tc := ⟨.hbm, 129, rfl⟩
abbrev main_call5_cst : Ref sig .tc := ⟨.hbm, 130, rfl⟩
abbrev main_call5_v2 : Ref sig .tc := ⟨.hbm, 131, rfl⟩
abbrev main_call5_v3 : Ref sig .tc := ⟨.hbm, 132, rfl⟩
abbrev main_call5_cst_0 : Ref sig .tc := ⟨.hbm, 133, rfl⟩
abbrev main_call5_v4 : Ref sig .tc := ⟨.hbm, 134, rfl⟩
abbrev main_call5_v5 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_cst_4 : Ref sig .tc := ⟨.hbm, 143, rfl⟩
abbrev main_v66 : Ref sig .tc := ⟨.hbm, 144, rfl⟩
abbrev main_v67 : Ref sig .tc := ⟨.hbm, 145, rfl⟩
abbrev main_cst_5 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_cst_6 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S500000x64_S500000x192_d1 : Shape.Concatenates [S500000x64, S500000x64, S500000x64] S500000x192 1
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S_S50000x64 : S_.BroadcastsInDim S50000x64 (![] : Fin 0 → Fin S50000x64.rank)
  gather_S50000x64_S500000x1_S500000x64_1_0_n_n_0_1_164_wf : GatherDims.WF S50000x64 S500000x1 S500000x64 [1] [0] [] [0] [] 1 ![1, 64]
  dot_S500000x192_S192x64_S500000x64_1_0_0_1_n_n_wf : DotDims.WF S500000x192 S192x64 S500000x64 [1] [0] [0] [1] [] []
  dot_S500000x64_S64x64_S500000x64_1_0_0_1_n_n_wf : DotDims.WF S500000x64 S64x64 S500000x64 [1] [0] [0] [1] [] []
  dot_S500000x9_S9x64_S500000x64_1_0_0_1_n_n_wf : DotDims.WF S500000x9 S9x64 S500000x64 [1] [0] [0] [1] [] []
  scatter_S50000x64_S500000x1_S500000x64_1_0_0_1_wf : ScatterDims.WF S50000x64 S500000x1 S500000x64 [1] [0] [0] 1

variable [Facts₀]

def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def dot_S500000x192_S192x64_S500000x64_1_0_0_1_n_n : DotDims S500000x192 S192x64 S500000x64 where
  lhsContracting := [1]
  rhsContracting := [0]
  lhsNonContracting := [0]
  rhsNonContracting := [1]
  lhsBatch := []
  rhsBatch := []
  wf := dot_S500000x192_S192x64_S500000x64_1_0_0_1_n_n_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def dot_S500000x9_S9x64_S500000x64_1_0_0_1_n_n : DotDims S500000x9 S9x64 S500000x64 where
  lhsContracting := [1]
  rhsContracting := [0]
  lhsNonContracting := [0]
  rhsNonContracting := [1]
  lhsBatch := []
  rhsBatch := []
  wf := dot_S500000x9_S9x64_S500000x64_1_0_0_1_n_n_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf

class Facts : Prop extends Facts₀ where

variable [Facts]
-- ==== Proof.LibRowwise.lean ====
/-
  Matrix functions that treat every row alike, over the extended reals, and the printed operations that compute them.

  A network layer applied to a batch of rows — a product with a weight matrix, a bias row added to every row, an
  activation applied entry by entry, three matrices laid side by side — computes row `p` of its result from row `p` of its
  operands alone. Such a function is stated here ONCE for any number of rows `M`; `rowsAt` takes a band of `R` consecutive
  rows of a matrix, and every function of this file commutes with it by unfolding. So a computation carried out band by
  band and the same computation carried out on the whole matrix are instances of one function, and the band of the
  whole result is the result on the band.

  The second half reads the printed operations as these functions, at any number of rows: the host's matrix product
  and the block product into a zero accumulator are `prod` (for any dimension-number record that is the plain one), a
  bias laid along every row is `rowBias` whether it was broadcast from a vector or from a one-row matrix, and three
  matrices concatenated along the columns are `join3`.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

open scoped BigOperators

namespace Cert.Lib.Rowwise

open Idealize.ShloMosaic Idealize.ShloMosaic.ValueIdx

/-- An `M × n` matrix of extended reals. -/
abbrev Mat (M n : ℕ) : Type := (⟨2, ![M, n]⟩ : Shape).Idx → EReal
/-- A vector of `n` extended reals. -/
abbrev RowV (n : ℕ) : Type := (⟨1, ![n]⟩ : Shape).Idx → EReal

/-! ## Bands of rows -/

/-- Rows `o, …, o + R - 1` of a matrix, as an `R`-row matrix. -/
def rowsAt {α : Type} {M n : ℕ} (R o : ℕ) (h : o + R ≤ M) (X : (⟨2, ![M, n]⟩ : Shape).Idx → α) :
    (⟨2, ![R, n]⟩ : Shape).Idx → α :=
  fun j => X (ix2 (⟨o + (j 0).val, by have := idx2_lt0 j; omega⟩ : Fin M) (j 1 : Fin n))

theorem rowsAt_apply {α : Type} {M n : ℕ} (R o : ℕ) (h : o + R ≤ M) (X : (⟨2, ![M, n]⟩ : Shape).Idx → α)
    (p : Fin R) (q : Fin n) : rowsAt R o h X (ix2 p q) = X (ix2 (⟨o + p.val, by omega⟩ : Fin M) q) := rfl

/-! ## Functions that treat every row alike -/

/-- The matrix product: entry `(p, q)` is the sum over `k` of `x p k · w k q`. -/
def prod {M K N : ℕ} (x : Mat M K) (w : Mat K N) : Mat M N :=
  fun i => ∑ k : Fin K, x (ix2 (i 0 : Fin M) k) * w (ix2 k (i 1 : Fin N))

/-- A vector laid along every row. -/
def rowBias {M N : ℕ} (b : RowV N) : Mat M N := fun i => b (ix1 (i 1 : Fin N))

/-- A dense layer: the product with the weights plus the bias row. -/
def dense {M K N : ℕ} (x : Mat M K) (w : Mat K N) (b : RowV N) : Mat M N := fun i => prod x w i + rowBias b i

/-- The logistic function entry by entry. -/
def sigm {M N : ℕ} (x : Mat M N) : Mat M N := fun i => Ideal.logistic (x i)

/-- `x · logistic x` entry by entry. -/
def silu {M N : ℕ} (x : Mat M N) : Mat M N := fun i => x i * Ideal.logistic (x i)

/-- The product entry by entry. -/
def hmul {M N : ℕ} (x y : Mat M N) : Mat M N := fun i => x i * y i

/-- The sum entry by entry. -/
def hadd {M N : ℕ} (x y : Mat M N) : Mat M N := fun i => x i + y i

/-- Three `n`-column matrices side by side. -/
def join3 {M n m : ℕ} (hm : m = n + n + n) (a b c : Mat M n) : Mat M m :=
  fun i =>
    if h1 : (i 1).val < n then a (ix2 (i 0 : Fin M) (⟨(i 1).val, h1⟩ : Fin n))
    else if h2 : (i 1).val < n + n then b (ix2 (i 0 : Fin M) (⟨(i 1).val - n, by omega⟩ : Fin n))
    else c (ix2 (i 0 : Fin M) (⟨(i 1).val - (n + n), by have := idx2_lt1 i; omega⟩ : Fin n))

section Bands
variable {M K N n m : ℕ} (R o : ℕ) (h : o + R ≤ M)

theorem rowsAt_prod (x : Mat M K) (w : Mat K N) : rowsAt R o h (prod x w) = prod (rowsAt R o h x) w := rfl
theorem rowsAt_rowBias (b : RowV N) : rowsAt R o h (rowBias (M := M) b) = rowBias b := rfl
theorem rowsAt_dense (x : Mat M K) (w : Mat K N) (b : RowV N) :
    rowsAt R o h (dense x w b) = dense (rowsAt R o h x) w b := rfl
theorem rowsAt_sigm (x : Mat M N) : rowsAt R o h (sigm x) = sigm (rowsAt R o h x) := rfl
theorem rowsAt_silu (x : Mat M N) : rowsAt R o h (silu x) = silu (rowsAt R o h x) := rfl
theorem rowsAt_hmul (x y : Mat M N) : rowsAt R o h (hmul x y) = hmul (rowsAt R o h x) (rowsAt R o h y) := rfl
theorem rowsAt_hadd (x y : Mat M N) : rowsAt R o h (hadd x y) = hadd (rowsAt R o h x) (rowsAt R o h y) := rfl
theorem rowsAt_join3 (hm : m = n + n + n) (a b c : Mat M n) :
    rowsAt R o h (join3 hm a b c) = join3 hm (rowsAt R o h a) (rowsAt R o h b) (rowsAt R o h c) := rfl

end Bands

/-! ## The printed operations, read as these functions -/

section Ops
variable {M K N n m : ℕ}

/-- A change of float format is the identity on the extended reals. -/
theorem truncf_id {s : Shape} {φ ψ : FTy} (x : FVec Ideal s φ) (h : ψ.bits < φ.bits) : truncf ψ x h = x := rfl

/-- The host's product with the plain dimension numbers is the matrix product. -/
theorem hostDot_eq_prod (d : DotDims ⟨2, ![M, K]⟩ ⟨2, ![K, N]⟩ ⟨2, ![M, N]⟩) (hd : d = DotDims.plain M K N)
    (prec : Option ContractPrecision) {φ₁ φ₂ : FTy} (x : FVec Ideal ⟨2, ![M, K]⟩ φ₁) (w : FVec Ideal ⟨2, ![K, N]⟩ φ₂) :
    Host.dotGeneral d prec x w = prod x w := by
  subst hd
  funext i
  obtain ⟨p, q, rfl⟩ : ∃ (p : Fin M) (q : Fin N), i = ix2 p q := ⟨i 0, i 1, eq_ix2 i⟩
  exact StackMember.dotGeneral_plain_apply prec x w p q

/-- The block product into a zero accumulator, with the plain dimension numbers, is the matrix product. -/
theorem matmul_eq_prod (d : DotDims ⟨2, ![M, K]⟩ ⟨2, ![K, N]⟩ ⟨2, ![M, N]⟩) (hd : d = DotDims.plain M K N)
    (prec : Option ContractPrecision) {φ₁ φ₂ : FTy} (x : FVec Ideal ⟨2, ![M, K]⟩ φ₁) (w : FVec Ideal ⟨2, ![K, N]⟩ φ₂) :
    matmul d prec x w (constant ⟨2, ![M, N]⟩ .f32 0x00000000#32) = prod x w := by
  rw [matmul_zero_eq_dotGeneral]
  exact hostDot_eq_prod d hd prec x w

/-- A one-row matrix broadcast down the rows is its row laid along every row. -/
theorem broadcastTo_oneRow (y : (⟨2, ![1, N]⟩ : Shape).Idx → EReal)
    (hb : (⟨2, ![1, N]⟩ : Shape).Broadcasts ⟨2, ![M, N]⟩) :
    broadcastTo ⟨2, ![M, N]⟩ y hb = rowBias (N := N) (fun i : (⟨1, ![N]⟩ : Shape).Idx => y (ix2 (0 : Fin 1) (i 0 : Fin N))) := by
  funext i
  refine broadcastTo_apply y hb i (ix2 (0 : Fin 1) (i 1 : Fin N)) ?_
  intro a
  match a with
  | ⟨0, _⟩ => rfl
  | ⟨1, _⟩ =>
    show (i 1).val = if N = 1 then 0 else (i 1).val
    split
    · have := idx2_lt1 i; omega
    · rfl

/-- A vector reshaped to one row, read back as a vector, is the vector. -/
theorem oneRow_shapeCast (b : RowV N) (hs : (⟨1, ![N]⟩ : Shape).ShapeCasts ⟨2, ![1, N]⟩) :
    (fun i : (⟨1, ![N]⟩ : Shape).Idx => shapeCast ⟨2, ![1, N]⟩ b hs (ix2 (0 : Fin 1) (i 0 : Fin N))) = b := by
  funext i
  refine (shapeCast_apply b hs (ix2 (0 : Fin 1) (i 0 : Fin N)) (ix1 (i 0 : Fin N)) ?_).trans ?_
  · rw [Shape.rowMajor_val_two, Shape.rowMajor_val_one]
    show (i 0).val = 0 * N + (i 0).val
    omega
  · exact congrArg b (eq_ix1 i).symm

/-- The host's way to lay a vector along every row: to one row along axis 1, then down the rows. -/
theorem hostBias_eq (b : RowV N) (h1 : (⟨1, ![N]⟩ : Shape).BroadcastsInDim ⟨2, ![1, N]⟩ ![1])
    (h2 : (⟨2, ![1, N]⟩ : Shape).BroadcastsInDim ⟨2, ![M, N]⟩ ![0, 1]) :
    broadcastInDim ⟨2, ![M, N]⟩ ![0, 1] h2 (broadcastInDim ⟨2, ![1, N]⟩ ![1] h1 b) = rowBias b := by
  funext i
  obtain ⟨p, q, rfl⟩ : ∃ (p : Fin M) (q : Fin N), i = ix2 p q := ⟨i 0, i 1, eq_ix2 i⟩
  rw [broadcastInDim_oneRow_apply h2 _ p q]
  refine broadcastInDim_apply ![1] h1 b (ix2 (0 : Fin 1) q) (ix1 q) ?_
  intro a
  match a with
  | ⟨0, _⟩ =>
    show q.val = if N = 1 then 0 else q.val
    split
    · have := q.isLt; omega
    · rfl

/-- The float pattern of one. -/
theorem ofBits_one : Ideal.ofBits .f32 0x3F800000#32 = 1 := by
  simp [Ideal.ofBits, Ideal.ieee, -EReal.coe_mul]; norm_num

/-- The host's expansion of the logistic function — one over one plus the exponential of the negation, the ones
    broadcast from a constant — is the logistic function entry by entry. -/
theorem hostSigm_eq (x : Mat M N) (h : (⟨0, ![]⟩ : Shape).BroadcastsInDim ⟨2, ![M, N]⟩ ![])
    (h' : (⟨0, ![]⟩ : Shape).BroadcastsInDim ⟨2, ![M, N]⟩ ![]) :
    Host.divf (broadcastInDim ⟨2, ![M, N]⟩ ![] h (constant (F := Ideal) ⟨0, ![]⟩ .f32 0x3F800000#32))
      (addf (broadcastInDim ⟨2, ![M, N]⟩ ![] h' (constant (F := Ideal) ⟨0, ![]⟩ .f32 0x3F800000#32)) (Host.exp (Host.negf x)))
      = sigm x := by
  funext i
  show Ideal.div (Ideal.ofBits .f32 0x3F800000#32) (Ideal.ofBits .f32 0x3F800000#32 + Ideal.exp (-(x i))) = Ideal.logistic (x i)
  rw [ofBits_one]
  rfl

/-- The same with the inner sum already read entry by entry. -/
theorem hostSigm_eq' (x : Mat M N) (h : (⟨0, ![]⟩ : Shape).BroadcastsInDim ⟨2, ![M, N]⟩ ![])
    (h' : (⟨0, ![]⟩ : Shape).BroadcastsInDim ⟨2, ![M, N]⟩ ![]) :
    Host.divf (broadcastInDim ⟨2, ![M, N]⟩ ![] h (constant (F := Ideal) ⟨0, ![]⟩ .f32 0x3F800000#32))
      (hadd (broadcastInDim ⟨2, ![M, N]⟩ ![] h' (constant (F := Ideal) ⟨0, ![]⟩ .f32 0x3F800000#32))
        (Host.exp (F := Ideal) (φ := .f32) (Host.negf x)))
      = sigm x := hostSigm_eq x h h'

theorem mulf_eq_hmul (x y : Mat M N) : mulf (F := Ideal) (φ := .f32) x y = hmul x y := rfl
theorem addf_eq_hadd (x y : Mat M N) : addf (F := Ideal) (φ := .f32) x y = hadd x y := rfl
theorem logistic_eq_sigm (x : Mat M N) : logistic (F := Ideal) (φ := .f32) x = sigm x := rfl
theorem hmul_sigm (x : Mat M N) : hmul x (sigm x) = silu x := rfl
theorem hadd_rowBias (x : Mat M K) (w : Mat K N) (b : RowV N) : hadd (prod x w) (rowBias b) = dense x w b := rfl

/-- Three matrices concatenated along the columns are the three side by side. -/
theorem concat3_eq_join3 (hm : m = n + n + n) (a b c : Mat M n)
    (h : Shape.Concatenates ([(⟨⟨2, ![M, n]⟩, a⟩ : (s : Shape) × (s.Idx → EReal)), ⟨⟨2, ![M, n]⟩, b⟩, ⟨⟨2, ![M, n]⟩, c⟩].map (·.1))
      ⟨2, ![M, m]⟩ 1) :
    concatenate ⟨2, ![M, m]⟩ 1 [⟨⟨2, ![M, n]⟩, a⟩, ⟨⟨2, ![M, n]⟩, b⟩, ⟨⟨2, ![M, n]⟩, c⟩] h = join3 hm a b c := by
  funext i
  have hi1 := idx2_lt1 i
  unfold join3
  split
  · rename_i h1
    refine concatenate_apply_piece (1 : Fin 2) _ h i 0 (by show (0 : ℕ) < 3; omega) ⟨2, ![M, n]⟩ a rfl rfl 0 rfl
      (ix2 (i 0 : Fin M) (⟨(i 1).val, h1⟩ : Fin n)) ?_ ?_
    · intro b hb
      match b with
      | ⟨0, _⟩ => rfl
      | ⟨1, _⟩ => exact absurd rfl hb
    · show 0 + (i 1).val = (i 1).val
      omega
  · rename_i h1
    split
    · rename_i h2
      refine concatenate_apply_piece (1 : Fin 2) _ h i 1 (by show (1 : ℕ) < 3; omega) ⟨2, ![M, n]⟩ b rfl rfl n rfl
        (ix2 (i 0 : Fin M) (⟨(i 1).val - n, by omega⟩ : Fin n)) ?_ ?_
      · intro b hb
        match b with
        | ⟨0, _⟩ => rfl
        | ⟨1, _⟩ => exact absurd rfl hb
      · show n + ((i 1).val - n) = (i 1).val
        omega
    · rename_i h2
      refine concatenate_apply_piece (1 : Fin 2) _ h i 2 (by show (2 : ℕ) < 3; omega) ⟨2, ![M, n]⟩ c rfl rfl (n + n) rfl
        (ix2 (i 0 : Fin M) (⟨(i 1).val - (n + n), by omega⟩ : Fin n)) ?_ ?_
      · intro b hb
        match b with
        | ⟨0, _⟩ => rfl
        | ⟨1, _⟩ => exact absurd rfl hb
      · show n + n + ((i 1).val - (n + n)) = (i 1).val
        omega

end Ops

end Cert.Lib.Rowwise

end
-- ==== Proof.Spec.lean ====
/-
  The message-passing layer as a function of matrices with one row per edge.

  Per edge the layer sees the features `vi`, `vj` of its two end nodes, the edge's own features `e` and its radial
  basis values `rbf`. A gated perceptron takes the row `[vi | vj | e]` through two dense layers with `x · logistic x`
  between and after them, and multiplies the result by a second two-layer branch that ends in the logistic function; the
  gated value is then scaled entry by entry by a linear image of the radial basis values. The edge features are
  updated by adding this, and the message of an edge is the same expression, with its own weights, at the UPDATED edge
  features. Every step treats each row alike, so each function is stated for any number of rows and commutes with
  taking a band of rows.
-/
import proofs.«132257_j10677288698373_1_alg».proof.Proof.LibRowwise

noncomputable section

namespace Cert.Spec

open Idealize.ShloMosaic Cert.Lib.Rowwise

/-- The weights of one gated perceptron and of the linear map of the radial basis that scales it. -/
structure GateW where
  lw0 : Mat 192 64
  lb0 : RowV 64
  lw1 : Mat 64 64
  lb1 : RowV 64
  gw0 : Mat 192 64
  gb0 : RowV 64
  gw1 : Mat 64 64
  gb1 : RowV 64
  wW : Mat 9 64

/-- Everything the layer is given: the two weight sets, the node features, the edge features, the radial basis values and
    the two end-node indices of every edge. -/
structure Inputs where
  E : GateW
  N : GateW
  nf : Mat 50000 64
  ef : Mat 500000 64
  rbf : Mat 500000 9
  src : (⟨1, ![500000]⟩ : Shape).Idx → BitVec 32
  dst : (⟨1, ![500000]⟩ : Shape).Idx → BitVec 32

variable {M : ℕ}

/-- The gated perceptron of the rows of `x`: the value branch times the gate branch. -/
def gated (W : GateW) (x : Mat M 192) : Mat M 64 :=
  hmul (silu (dense (silu (dense x W.lw0 W.lb0)) W.lw1 W.lb1)) (sigm (dense (silu (dense x W.gw0 W.gb0)) W.gw1 W.gb1))

/-- The gated perceptron of `[vi | vj | e]`, scaled by the linear image of the radial basis values. -/
def update (W : GateW) (vi vj e : Mat M 64) (rbf : Mat M 9) : Mat M 64 :=
  hmul (gated W (join3 (rfl : 192 = 64 + 64 + 64) vi vj e)) (prod rbf W.wW)

/-- The updated edge features. -/
def edgeOut (E : GateW) (vi vj ef : Mat M 64) (rbf : Mat M 9) : Mat M 64 := hadd ef (update E vi vj ef rbf)

/-- The message of each edge, computed at the updated edge features. -/
def mess (E Nw : GateW) (vi vj ef : Mat M 64) (rbf : Mat M 9) : Mat M 64 :=
  update Nw vi vj (edgeOut E vi vj ef rbf) rbf

/-- A band of rows of the updated edge features is the update of the band. -/
theorem rowsAt_edgeOut (R o : ℕ) (h : o + R ≤ M) (E : GateW) (vi vj ef : Mat M 64) (rbf : Mat M 9) :
    rowsAt R o h (edgeOut E vi vj ef rbf)
      = edgeOut E (rowsAt R o h vi) (rowsAt R o h vj) (rowsAt R o h ef) (rowsAt R o h rbf) := rfl

/-- A band of rows of the messages is the messages of the band. -/
theorem rowsAt_mess (R o : ℕ) (h : o + R ≤ M) (E Nw : GateW) (vi vj ef : Mat M 64) (rbf : Mat M 9) :
    rowsAt R o h (mess E Nw vi vj ef rbf)
      = mess E Nw (rowsAt R o h vi) (rowsAt R o h vj) (rowsAt R o h ef) (rowsAt R o h rbf) := rfl

end Cert.Spec

end
-- ==== Proof.KernelBody.lean ====
/-
  What one grid point of the kernel computes, as the layer's function of its blocks.

  The kernel body loads a band of 2000 edges — the gathered node rows, the edge features, the radial basis values — and
  the resident weights, and stores two blocks: the updated edge features of the band and the band's messages. Both are
  the layer's functions (`Cert.Spec.edgeOut`, `Cert.Spec.mess`) of the loaded band: every product into a zero accumulator
  is the matrix product, a bias row broadcast down the band is the row laid along every row, the three blocks
  concatenated are the three side by side, `x · logistic x` is the activation, and the changes of float format are the
  identity on the extended reals.
-/
import proofs.«132257_j10677288698373_1_alg».proof.Proof.Gen.KernelIdeal.Skeleton
import proofs.«132257_j10677288698373_1_alg».proof.Proof.Spec

set_option maxRecDepth 16384

noncomputable section

namespace Cert.KernelIdeal.Body

open Idealize.ShloMosaic Idealize.ShloMosaic.ValueIdx Cert.KernelIdeal Cert.KernelIdeal.Gen Cert.Lib.Rowwise Cert.Spec

/-- The one row of a one-row matrix, as a vector. -/
def rowOf (b : (⟨2, ![1, 64]⟩ : Shape).Idx → EReal) : RowV 64 := fun i => b (ix2 (0 : Fin 1) (i 0 : Fin 64))

/-- A gated perceptron's weights from the kernel's resident blocks: the biases arrive as one-row matrices. -/
def gateW (w0 : Mat 192 64) (b0 : (⟨2, ![1, 64]⟩ : Shape).Idx → EReal) (w1 : Mat 64 64) (b1 : (⟨2, ![1, 64]⟩ : Shape).Idx → EReal)
    (g0 : Mat 192 64) (c0 : (⟨2, ![1, 64]⟩ : Shape).Idx → EReal) (g1 : Mat 64 64) (c1 : (⟨2, ![1, 64]⟩ : Shape).Idx → EReal)
    (wW : Mat 9 64) : GateW :=
  ⟨w0, rowOf b0, w1, rowOf b1, g0, rowOf c0, g1, rowOf c1, wW⟩

theorem bias_block (y : (⟨2, ![1, 64]⟩ : Shape).Idx → EReal) (hb : (⟨2, ![1, 64]⟩ : Shape).Broadcasts ⟨2, ![2000, 64]⟩) :
    broadcastTo ⟨2, ![2000, 64]⟩ y hb = rowBias (rowOf y) := broadcastTo_oneRow y hb

theorem dot192 : dot_S2000x192_S192x64_S2000x64_1_0_0_1_n_n = DotDims.plain 2000 192 64 := rfl
theorem dot64 : dot_S2000x64_S64x64_S2000x64_1_0_0_1_n_n = DotDims.plain 2000 64 64 := rfl
theorem dot9 : dot_S2000x9_S9x64_S2000x64_1_0_0_1_n_n = DotDims.plain 2000 9 64 := rfl

/-- The block stored to the first output: the updated edge features of the band. -/
theorem edge_payload (x0 x1 x2 : Vec Ideal S2000x64 .f32) (x3 : Vec Ideal S2000x9 .f32) (x4 : Vec Ideal S192x64 .bf16)
    (x5 : Vec Ideal S1x64 .f32) (x6 : Vec Ideal S64x64 .bf16) (x7 : Vec Ideal S1x64 .f32) (x8 : Vec Ideal S192x64 .bf16)
    (x9 : Vec Ideal S1x64 .f32) (x10 : Vec Ideal S64x64 .bf16) (x11 : Vec Ideal S1x64 .f32) (x12 : Vec Ideal S9x64 .bf16) :
    k0_pay9 (F := Ideal) x2 (k0_pay4 x3) (k0_pay6 x0 x1 x2 x4 x5 x6 x7) (k0_pay7 x0 x1 x2 x8 x9) (k0_pay8 x0 x1 x2 x8 x9) x10 x11 x12
      = edgeOut (gateW x4 x5 x6 x7 x8 x9 x10 x11 x12) x0 x1 x2 x3 := by
  unfold k0_pay9 k0_pay8 k0_pay4 k0_pay6 k0_pay7 k0_pay5 k0_pay2 k0_pay3
  simp only [truncf_id, shapeCast_self, matmul_eq_prod _ dot192, matmul_eq_prod _ dot64, matmul_eq_prod _ dot9,
    bias_block, concat3_eq_join3 (n := 64) (m := 192) rfl, mulf_eq_hmul, addf_eq_hadd, logistic_eq_sigm, hmul_sigm,
    hadd_rowBias]
  rfl

/-- The block stored to the second output: the band's messages, computed at the updated edge features. -/
theorem mess_payload (x0 x1 x2 : Vec Ideal S2000x64 .f32) (x3 : Vec Ideal S2000x9 .f32) (x4 : Vec Ideal S192x64 .bf16)
    (x5 : Vec Ideal S1x64 .f32) (x6 : Vec Ideal S64x64 .bf16) (x7 : Vec Ideal S1x64 .f32) (x8 : Vec Ideal S192x64 .bf16)
    (x9 : Vec Ideal S1x64 .f32) (x10 : Vec Ideal S64x64 .bf16) (x11 : Vec Ideal S1x64 .f32) (x12 : Vec Ideal S9x64 .bf16)
    (x13 : Vec Ideal S192x64 .bf16) (x14 : Vec Ideal S1x64 .f32) (x15 : Vec Ideal S64x64 .bf16) (x16 : Vec Ideal S1x64 .f32)
    (x17 : Vec Ideal S192x64 .bf16) (x18 : Vec Ideal S1x64 .f32) (x19 : Vec Ideal S64x64 .bf16) (x20 : Vec Ideal S1x64 .f32)
    (x21 : Vec Ideal S9x64 .bf16) :
    k0_pay1 (F := Ideal) (k0_pay4 x3)
        (k0_pay10 (k0_pay2 x0) (k0_pay3 x1) x2 (k0_pay4 x3) (k0_pay6 x0 x1 x2 x4 x5 x6 x7) (k0_pay7 x0 x1 x2 x8 x9)
          (k0_pay8 x0 x1 x2 x8 x9) x10 x11 x12)
        (k0_pay11 (k0_pay2 x0) (k0_pay3 x1) x2 (k0_pay4 x3) (k0_pay6 x0 x1 x2 x4 x5 x6 x7) (k0_pay7 x0 x1 x2 x8 x9)
          (k0_pay8 x0 x1 x2 x8 x9) x10 x11 x12 x13 x14 x15 x16)
        (k0_pay12 x17) (constant S2000x64 .f32 0x00000000#32) x18 x19 x20 x21
      = mess (gateW x4 x5 x6 x7 x8 x9 x10 x11 x12) (gateW x13 x14 x15 x16 x17 x18 x19 x20 x21) x0 x1 x2 x3 := by
  unfold k0_pay1 k0_pay11 k0_pay12 k0_pay10 k0_pay9 k0_pay8 k0_pay4 k0_pay6 k0_pay7 k0_pay5 k0_pay2 k0_pay3
  simp only [truncf_id, shapeCast_self, matmul_eq_prod _ dot192, matmul_eq_prod _ dot64, matmul_eq_prod _ dot9,
    bias_block, concat3_eq_join3 (n := 64) (m := 192) rfl, mulf_eq_hmul, addf_eq_hadd, logistic_eq_sigm, hmul_sigm,
    hadd_rowBias]
  rfl

end Cert.KernelIdeal.Body

end
-- ==== Proof.KernelValue.lean ====
/-
  The kernel's two result arrays after the run, as the layer's functions of the argument arrays.

  Grid point `t` of the 250 stages rows `2000 t … 2000 t + 1999` of the four per-edge arrays (the rows gathered for the
  source and the destination nodes, the edge features, the radial basis values) and the whole of every weight array,
  and writes back rows `2000 t …` of the two outputs. What it writes is the layer's function of the band it read, and the
  layer treats every row alike, so it is the band of the layer's function of the WHOLE arrays; the 250 bands cover
  the 500000 rows, so each output array ends as that function. The lines after the call scatter-add the messages into
  the nodes and add the node features; they are read off the run's post as they stand.
-/
import proofs.«132257_j10677288698373_1_alg».proof.Proof.Gen.KernelIdeal.Frame
import proofs.«132257_j10677288698373_1_alg».proof.Proof.KernelBody
import Idealize.ShloMosaic.Lib.Pipeline.Value
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Body Cert.Lib.Rowwise Cert.Spec

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds, at their literal types -/

abbrev aVi (c : Dev nD) : Mat 500000 64 := V m c main_v6
abbrev aVj (c : Dev nD) : Mat 500000 64 := V m c main_v13
abbrev aEf (c : Dev nD) : Mat 500000 64 := V m c main_arg19
abbrev aRbf (c : Dev nD) : Mat 500000 9 := V m c main_arg20

/-- The per-edge windows move one block down per point; the weight windows stay on their one block. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_22.index t (0 : Fin 2) = t.val ∧ win0_22.index t (1 : Fin 2) = 0)
    ∧ (win0_23.index t (0 : Fin 2) = t.val ∧ win0_23.index t (1 : Fin 2) = 0) :=
  (by decide +kernel : ∀ t : Fin grid0.N, _)

theorem idx_whole : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0)
    ∧ (win0_17.index t (0 : Fin 2) = 0 ∧ win0_17.index t (1 : Fin 2) = 0)
    ∧ (win0_18.index t (0 : Fin 2) = 0 ∧ win0_18.index t (1 : Fin 2) = 0)
    ∧ (win0_19.index t (0 : Fin 2) = 0 ∧ win0_19.index t (1 : Fin 2) = 0)
    ∧ (win0_20.index t (0 : Fin 2) = 0 ∧ win0_20.index t (1 : Fin 2) = 0)
    ∧ (win0_21.index t (0 : Fin 2) = 0 ∧ win0_21.index t (1 : Fin 2) = 0) :=
  (by decide +kernel : ∀ t : Fin grid0.N, _)

/-- The band of point `t` lies inside the 500000 rows. -/
theorem band_le (t : Fin cfg0.N) : 2000 * t.val + 2000 ≤ 500000 := by
  have h : t.val < 250 := lt_of_lt_of_eq t.isLt (N_0 : cfg0.N = 250)
  omega

/-! ## The blocks a point reads -/

/-- The coordinates of a block's entry in its array: block index times block extent plus the entry's own. -/
local macro "band_blk" i:term "," j:term "," t:term "," k:num : tactic => `(tactic|
  (refine congrArg _ (funext fun a => Fin.ext ?_)
   match a with
   | ⟨0, _⟩ => (show $i (0 : Fin 2) * 2000 + 1 * ($j 0).val = 2000 * ($t).val + ($j 0).val; omega)
   | ⟨1, _⟩ => (show $i (1 : Fin 2) * $k + 1 * ($j 1).val = ($j 1).val; omega)))

local macro "whole_blk" i:term "," j:term "," r:num "," k:num : tactic => `(tactic|
  (refine congrArg _ (funext fun a => Fin.ext ?_)
   match a with
   | ⟨0, _⟩ => (show $i (0 : Fin 2) * $r + 1 * ($j 0).val = ($j 0).val; omega)
   | ⟨1, _⟩ => (show $i (1 : Fin 2) * $k + 1 * ($j 1).val = ($j 1).val; omega)))

theorem blk0 (c : Dev nD) (t : Fin cfg0.N) : iblk m c 0 t = rowsAt 2000 (2000 * t.val) (band_le t) (aVi m c) := by
  funext j; obtain ⟨e0, e1⟩ := (idx_rows t).1
  show V m c main_v6 (((cfg0.win 0).blk t).view.emb j) = V m c main_v6 (ix2 ⟨2000 * t.val + (j 0).val, _⟩ (j 1))
  band_blk win0_0.index t, j, t, 64
theorem blk1 (c : Dev nD) (t : Fin cfg0.N) : iblk m c 1 t = rowsAt 2000 (2000 * t.val) (band_le t) (aVj m c) := by
  funext j; obtain ⟨e0, e1⟩ := (idx_rows t).2.1
  show V m c main_v13 (((cfg0.win 1).blk t).view.emb j) = V m c main_v13 (ix2 ⟨2000 * t.val + (j 0).val, _⟩ (j 1))
  band_blk win0_1.index t, j, t, 64
theorem blk2 (c : Dev nD) (t : Fin cfg0.N) : iblk m c 2 t = rowsAt 2000 (2000 * t.val) (band_le t) (aEf m c) := by
  funext j; obtain ⟨e0, e1⟩ := (idx_rows t).2.2.1
  show V m c main_arg19 (((cfg0.win 2).blk t).view.emb j) = V m c main_arg19 (ix2 ⟨2000 * t.val + (j 0).val, _⟩ (j 1))
  band_blk win0_2.index t, j, t, 64
theorem blk3 (c : Dev nD) (t : Fin cfg0.N) : iblk m c 3 t = rowsAt 2000 (2000 * t.val) (band_le t) (aRbf m c) := by
  funext j; obtain ⟨e0, e1⟩ := (idx_rows t).2.2.2.1
  show V m c main_arg20 (((cfg0.win 3).blk t).view.emb j) = V m c main_arg20 (ix2 ⟨2000 * t.val + (j 0).val, _⟩ (j 1))
  band_blk win0_3.index t, j, t, 9

/-! ## The resident weights: each window's one block is its whole array, which a line before the call made from an
    argument array by a change of float format (the identity here) or, for a bias, by reshaping it to one row -/

theorem w4 (c : Dev nD) (t : Fin cfg0.N) : (iblk m c 4 t : Mat 192 64) = m ((c : Thread nD τ).loc main_arg0) := by
  have hb : iblk m c 4 t = V m c main_v14 := by
    funext j; obtain ⟨e0, e1⟩ := (idx_whole t).1
    show V m c main_v14 (((cfg0.win 4).blk t).view.emb j) = V m c main_v14 j
    whole_blk win0_4.index t, j, 192, 64
  rw [hb]; show StableHlo.after hostOps0 (fun b => m (c, b)) (Proc.devRef .tc main_v14) = _; after_results; rfl
theorem w6 (c : Dev nD) (t : Fin cfg0.N) : (iblk m c 6 t : Mat 64 64) = m ((c : Thread nD τ).loc main_arg2) := by
  have hb : iblk m c 6 t = V m c main_v15 := by
    funext j; obtain ⟨e0, e1⟩ := (idx_whole t).2.2.1
    show V m c main_v15 (((cfg0.win 6).blk t).view.emb j) = V m c main_v15 j
    whole_blk win0_6.index t, j, 64, 64
  rw [hb]; show StableHlo.after hostOps0 (fun b => m (c, b)) (Proc.devRef .tc main_v15) = _; after_results; rfl
theorem w8 (c : Dev nD) (t : Fin cfg0.N) : (iblk m c 8 t : Mat 192 64) = m ((c : Thread nD τ).loc main_arg4) := by
  have hb : iblk m c 8 t = V m c main_v16 := by
    funext j; obtain ⟨e0, e1⟩ := (idx_whole t).2.2.2.2.1
    show V m c main_v16 (((cfg0.win 8).blk t).view.emb j) = V m c main_v16 j
    whole_blk win0_8.index t, j, 192, 64
  rw [hb]; show StableHlo.after hostOps0 (fun b => m (c, b)) (Proc.devRef .tc main_v16) = _; after_results; rfl
theorem w10 (c : Dev nD) (t : Fin cfg0.N) : (iblk m c 10 t : Mat 64 64) = m ((c : Thread nD τ).loc main_arg6) := by
  have hb : iblk m c 10 t = V m c main_v17 := by
    funext j; obtain ⟨e0, e1⟩ := (idx_whole t).2.2.2.2.2.2.1
    show V m c main_v17 (((cfg0.win 10).blk t).view.emb j) = V m c main_v17 j
    whole_blk win0_10.index t, j, 64, 64
  rw [hb]; show StableHlo.after hostOps0 (fun b => m (c, b)) (Proc.devRef .tc main_v17) = _; after_results; rfl
theorem w12 (c : Dev nD) (t : Fin cfg0.N) : (iblk m c 12 t : Mat 9 64) = m ((c : Thread nD τ).loc main_arg8) := by
  have hb : iblk m c 12 t = V m c main_v18 := by
    funext j; obtain ⟨e0, e1⟩ := (idx_whole t).2.2.2.2.2.2.2.2.1
    show V m c main_v18 (((cfg0.win 12).blk t).view.emb j) = V m c main_v18 j
    whole_blk win0_12.index t, j, 9, 64
  rw [hb]; show StableHlo.after hostOps0 (fun b => m (c, b)) (Proc.devRef .tc main_v18) = _; after_results; rfl
theorem w13 (c : Dev nD) (t : Fin cfg0.N) : (iblk m c 13 t : Mat 192 64) = m ((c : Thread nD τ).loc main_arg9) := by
  have hb : iblk m c 13 t = V m c main_v19 := by
    funext j; obtain ⟨e0, e1⟩ := (idx_whole t).2.2.2.2.2.2.2.2.2.1
    show V m c main_v19 (((cfg0.win 13).blk t).view.emb j) = V m c main_v19 j
    whole_blk win0_13.index t, j, 192, 64
  rw [hb]; show StableHlo.after hostOps0 (fun b => m (c, b)) (Proc.devRef .tc main_v19) = _; after_results; rfl
theorem w15 (c : Dev nD) (t : Fin cfg0.N) : (iblk m c 15 t : Mat 64 64) = m ((c : Thread nD τ).loc main_arg11) := by
  have hb : iblk m c 15 t = V m c main_v20 := by
    funext j; obtain ⟨e0, e1⟩ := (idx_whole t).2.2.2.2.2.2.2.2.2.2.2.1
    show V m c main_v20 (((cfg0.win 15).blk t).view.emb j) = V m c main_v20 j
    whole_blk win0_15.index t, j, 64, 64
  rw [hb]; show StableHlo.after hostOps0 (fun b => m (c, b)) (Proc.devRef .tc main_v20) = _; after_results; rfl
theorem w17 (c : Dev nD) (t : Fin cfg0.N) : (iblk m c 17 t : Mat 192 64) = m ((c : Thread nD τ).loc main_arg13) := by
  have hb : iblk m c 17 t = V m c main_v21 := by
    funext j; obtain ⟨e0, e1⟩ := (idx_whole t).2.2.2.2.2.2.2.2.2.2.2.2.2.1
    show V m c main_v21 (((cfg0.win 17).blk t).view.emb j) = V m c main_v21 j
    whole_blk win0_17.index t, j, 192, 64
  rw [hb]; show StableHlo.after hostOps0 (fun b => m (c, b)) (Proc.devRef .tc main_v21) = _; after_results; rfl
theorem w19 (c : Dev nD) (t : Fin cfg0.N) : (iblk m c 19 t : Mat 64 64) = m ((c : Thread nD τ).loc main_arg15) := by
  have hb : iblk m c 19 t = V m c main_v22 := by
    funext j; obtain ⟨e0, e1⟩ := (idx_whole t).2.2.2.2.2.2.2.2.2.2.2.2.2.2.2.1
    show V m c main_v22 (((cfg0.win 19).blk t).view.emb j) = V m c main_v22 j
    whole_blk win0_19.index t, j, 64, 64
  rw [hb]; show StableHlo.after hostOps0 (fun b => m (c, b)) (Proc.devRef .tc main_v22) = _; after_results; rfl
theorem w21 (c : Dev nD) (t : Fin cfg0.N) : (iblk m c 21 t : Mat 9 64) = m ((c : Thread nD τ).loc main_arg17) := by
  have hb : iblk m c 21 t = V m c main_v23 := by
    funext j; obtain ⟨e0, e1⟩ := (idx_whole t).2.2.2.2.2.2.2.2.2.2.2.2.2.2.2.2.2
    show V m c main_v23 (((cfg0.win 21).blk t).view.emb j) = V m c main_v23 j
    whole_blk win0_21.index t, j, 9, 64
  rw [hb]; show StableHlo.after hostOps0 (fun b => m (c, b)) (Proc.devRef .tc main_v23) = _; after_results; rfl

/-- A bias window's block, read back as a vector, is the bias argument: the line before the call reshaped the vector
    to one row. -/
theorem b5 (c : Dev nD) (t : Fin cfg0.N) : rowOf (iblk m c 5 t) = m ((c : Thread nD τ).loc main_arg1) := by
  have hb : iblk m c 5 t = V m c main_v24 := by
    funext j; obtain ⟨e0, e1⟩ := (idx_whole t).2.1
    show V m c main_v24 (((cfg0.win 5).blk t).view.emb j) = V m c main_v24 j
    whole_blk win0_5.index t, j, 1, 64
  have hv : (V m c main_v24 : (⟨2, ![1, 64]⟩ : Shape).Idx → EReal) = shapeCast S1x64 (m ((c : Thread nD τ).loc main_arg1) : RowV 64) shapeCasts_S64_S1x64 := by
    show StableHlo.after hostOps0 (fun b => m (c, b)) (Proc.devRef .tc main_v24) = _; after_results; rfl
  rw [hb, hv]; exact oneRow_shapeCast _ _
theorem b7 (c : Dev nD) (t : Fin cfg0.N) : rowOf (iblk m c 7 t) = m ((c : Thread nD τ).loc main_arg3) := by
  have hb : iblk m c 7 t = V m c main_v25 := by
    funext j; obtain ⟨e0, e1⟩ := (idx_whole t).2.2.2.1
    show V m c main_v25 (((cfg0.win 7).blk t).view.emb j) = V m c main_v25 j
    whole_blk win0_7.index t, j, 1, 64
  have hv : (V m c main_v25 : (⟨2, ![1, 64]⟩ : Shape).Idx → EReal) = shapeCast S1x64 (m ((c : Thread nD τ).loc main_arg3) : RowV 64) shapeCasts_S64_S1x64 := by
    show StableHlo.after hostOps0 (fun b => m (c, b)) (Proc.devRef .tc main_v25) = _; after_results; rfl
  rw [hb, hv]; exact oneRow_shapeCast _ _
theorem b9 (c : Dev nD) (t : Fin cfg0.N) : rowOf (iblk m c 9 t) = m ((c : Thread nD τ).loc main_arg5) := by
  have hb : iblk m c 9 t = V m c main_v26 := by
    funext j; obtain ⟨e0, e1⟩ := (idx_whole t).2.2.2.2.2.1
    show V m c main_v26 (((cfg0.win 9).blk t).view.emb j) = V m c main_v26 j
    whole_blk win0_9.index t, j, 1, 64
  have hv : (V m c main_v26 : (⟨2, ![1, 64]⟩ : Shape).Idx → EReal) = shapeCast S1x64 (m ((c : Thread nD τ).loc main_arg5) : RowV 64) shapeCasts_S64_S1x64 := by
    show StableHlo.after hostOps0 (fun b => m (c, b)) (Proc.devRef .tc main_v26) = _; after_results; rfl
  rw [hb, hv]; exact oneRow_shapeCast _ _
theorem b11 (c : Dev nD) (t : Fin cfg0.N) : rowOf (iblk m c 11 t) = m ((c : Thread nD τ).loc main_arg7) := by
  have hb : iblk m c 11 t = V m c main_v27 := by
    funext j; obtain ⟨e0, e1⟩ := (idx_whole t).2.2.2.2.2.2.2.1
    show V m c main_v27 (((cfg0.win 11).blk t).view.emb j) = V m c main_v27 j
    whole_blk win0_11.index t, j, 1, 64
  have hv : (V m c main_v27 : (⟨2, ![1, 64]⟩ : Shape).Idx → EReal) = shapeCast S1x64 (m ((c : Thread nD τ).loc main_arg7) : RowV 64) shapeCasts_S64_S1x64 := by
    show StableHlo.after hostOps0 (fun b => m (c, b)) (Proc.devRef .tc main_v27) = _; after_results; rfl
  rw [hb, hv]; exact oneRow_shapeCast _ _
theorem b14 (c : Dev nD) (t : Fin cfg0.N) : rowOf (iblk m c 14 t) = m ((c : Thread nD τ).loc main_arg10) := by
  have hb : iblk m c 14 t = V m c main_v28 := by
    funext j; obtain ⟨e0, e1⟩ := (idx_whole t).2.2.2.2.2.2.2.2.2.2.1
    show V m c main_v28 (((cfg0.win 14).blk t).view.emb j) = V m c main_v28 j
    whole_blk win0_14.index t, j, 1, 64
  have hv : (V m c main_v28 : (⟨2, ![1, 64]⟩ : Shape).Idx → EReal) = shapeCast S1x64 (m ((c : Thread nD τ).loc main_arg10) : RowV 64) shapeCasts_S64_S1x64 := by
    show StableHlo.after hostOps0 (fun b => m (c, b)) (Proc.devRef .tc main_v28) = _; after_results; rfl
  rw [hb, hv]; exact oneRow_shapeCast _ _
theorem b16 (c : Dev nD) (t : Fin cfg0.N) : rowOf (iblk m c 16 t) = m ((c : Thread nD τ).loc main_arg12) := by
  have hb : iblk m c 16 t = V m c main_v29 := by
    funext j; obtain ⟨e0, e1⟩ := (idx_whole t).2.2.2.2.2.2.2.2.2.2.2.2.1
    show V m c main_v29 (((cfg0.win 16).blk t).view.emb j) = V m c main_v29 j
    whole_blk win0_16.index t, j, 1, 64
  have hv : (V m c main_v29 : (⟨2, ![1, 64]⟩ : Shape).Idx → EReal) = shapeCast S1x64 (m ((c : Thread nD τ).loc main_arg12) : RowV 64) shapeCasts_S64_S1x64 := by
    show StableHlo.after hostOps0 (fun b => m (c, b)) (Proc.devRef .tc main_v29) = _; after_results; rfl
  rw [hb, hv]; exact oneRow_shapeCast _ _
theorem b18 (c : Dev nD) (t : Fin cfg0.N) : rowOf (iblk m c 18 t) = m ((c : Thread nD τ).loc main_arg14) := by
  have hb : iblk m c 18 t = V m c main_v30 := by
    funext j; obtain ⟨e0, e1⟩ := (idx_whole t).2.2.2.2.2.2.2.2.2.2.2.2.2.2.1
    show V m c main_v30 (((cfg0.win 18).blk t).view.emb j) = V m c main_v30 j
    whole_blk win0_18.index t, j, 1, 64
  have hv : (V m c main_v30 : (⟨2, ![1, 64]⟩ : Shape).Idx → EReal) = shapeCast S1x64 (m ((c : Thread nD τ).loc main_arg14) : RowV 64) shapeCasts_S64_S1x64 := by
    show StableHlo.after hostOps0 (fun b => m (c, b)) (Proc.devRef .tc main_v30) = _; after_results; rfl
  rw [hb, hv]; exact oneRow_shapeCast _ _
theorem b20 (c : Dev nD) (t : Fin cfg0.N) : rowOf (iblk m c 20 t) = m ((c : Thread nD τ).loc main_arg16) := by
  have hb : iblk m c 20 t = V m c main_v31 := by
    funext j; obtain ⟨e0, e1⟩ := (idx_whole t).2.2.2.2.2.2.2.2.2.2.2.2.2.2.2.2.1
    show V m c main_v31 (((cfg0.win 20).blk t).view.emb j) = V m c main_v31 j
    whole_blk win0_20.index t, j, 1, 64
  have hv : (V m c main_v31 : (⟨2, ![1, 64]⟩ : Shape).Idx → EReal) = shapeCast S1x64 (m ((c : Thread nD τ).loc main_arg16) : RowV 64) shapeCasts_S64_S1x64 := by
    show StableHlo.after hostOps0 (fun b => m (c, b)) (Proc.devRef .tc main_v31) = _; after_results; rfl
  rw [hb, hv]; exact oneRow_shapeCast _ _

/-! ## The two outputs, band by band -/

/-- The weights of the edge update and of the message, from the argument arrays. -/
def wE (c : Dev nD) : GateW :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8)⟩
def wN (c : Dev nD) : GateW :=
  ⟨m ((c : Thread nD τ).loc main_arg9), m ((c : Thread nD τ).loc main_arg10), m ((c : Thread nD τ).loc main_arg11),
   m ((c : Thread nD τ).loc main_arg12), m ((c : Thread nD τ).loc main_arg13), m ((c : Thread nD τ).loc main_arg14),
   m ((c : Thread nD τ).loc main_arg15), m ((c : Thread nD τ).loc main_arg16), m ((c : Thread nD τ).loc main_arg17)⟩

/-- The updated edge features and the messages of all 500000 edges, from the arrays the region finds. -/
def edgeV (c : Dev nD) : Mat 500000 64 := edgeOut (wE m c) (aVi m c) (aVj m c) (aEf m c) (aRbf m c)
def messV (c : Dev nD) : Mat 500000 64 := mess (wE m c) (wN m c) (aVi m c) (aVj m c) (aEf m c) (aRbf m c)

/-- Point `t` writes back the band `2000 t …` of the updated edge features. -/
theorem flushed22 (c : Dev nD) (t : Fin cfg0.N) :
    (dats m 0 c).flushed 22 t = ((cfg0.win 22).blk t).view.read (Elt Ideal) (edgeV m c) := by
  have hr : ((cfg0.win 22).blk t).view.read (Elt Ideal) (edgeV m c) = rowsAt 2000 (2000 * t.val) (band_le t) (edgeV m c) := by
    funext j; obtain ⟨e0, e1⟩ := (idx_rows t).2.2.2.2.1
    show edgeV m c (((cfg0.win 22).blk t).view.emb j) = edgeV m c (ix2 ⟨2000 * t.val + (j 0).val, _⟩ (j 1))
    band_blk win0_22.index t, j, t, 64
  rw [hr]
  show (cfg0.win 22).cut (grid0.coords t) ((dats m 0 c).after 22 t) = _
  rw [after0_22]
  unfold out0_22
  rw [View.canon_unit_zero hz]
  simp only [View.ld_unit_zero (S := S2000x64) hz, View.ld_unit_zero (S := S2000x9) hz, View.ld_unit_zero (S := S192x64) hz,
    View.ld_unit_zero (S := S1x64) hz, View.ld_unit_zero (S := S64x64) hz, View.ld_unit_zero (S := S9x64) hz]
  rw [edge_payload]
  unfold gateW edgeV
  rw [rowsAt_edgeOut, blk0, blk1, blk2, blk3, w4, b5, w6, b7, w8, b9, w10, b11, w12]
  rfl

/-- Point `t` writes back the band `2000 t …` of the messages. -/
theorem flushed23 (c : Dev nD) (t : Fin cfg0.N) :
    (dats m 0 c).flushed 23 t = ((cfg0.win 23).blk t).view.read (Elt Ideal) (messV m c) := by
  have hr : ((cfg0.win 23).blk t).view.read (Elt Ideal) (messV m c) = rowsAt 2000 (2000 * t.val) (band_le t) (messV m c) := by
    funext j; obtain ⟨e0, e1⟩ := (idx_rows t).2.2.2.2.2
    show messV m c (((cfg0.win 23).blk t).view.emb j) = messV m c (ix2 ⟨2000 * t.val + (j 0).val, _⟩ (j 1))
    band_blk win0_23.index t, j, t, 64
  rw [hr]
  show (cfg0.win 23).cut (grid0.coords t) ((dats m 0 c).after 23 t) = _
  rw [after0_23]
  unfold out0_23
  rw [View.canon_unit_zero hz]
  simp only [View.ld_unit_zero (S := S2000x64) hz, View.ld_unit_zero (S := S2000x9) hz, View.ld_unit_zero (S := S192x64) hz,
    View.ld_unit_zero (S := S1x64) hz, View.ld_unit_zero (S := S64x64) hz, View.ld_unit_zero (S := S9x64) hz]
  rw [mess_payload]
  unfold gateW messV
  rw [rowsAt_mess, blk0, blk1, blk2, blk3, w4, b5, w6, b7, w8, b9, w10, b11, w12, w13, b14, w15, b16, w17, b18, w19, b20, w21]
  rfl

/-! ## The bands cover the rows -/

theorem mem_blk22 (t : Fin cfg0.N) (i : S500000x64.Idx) :
    i ∈ ((cfg0.win 22).blk t).view.set ↔ ∀ a : Fin 2, win0_22.index t a * S2000x64.size a ≤ (i a).val ∧ (i a).val < win0_22.index t a * S2000x64.size a + S2000x64.size a := by
  show i ∈ ((View.whole main_v32_0).slice (win0_22.rect t)).set ↔ _
  rw [View.set_slice_whole, Rect.mem_set_unit]
  exact Iff.rfl

theorem mem_blk23 (t : Fin cfg0.N) (i : S500000x64.Idx) :
    i ∈ ((cfg0.win 23).blk t).view.set ↔ ∀ a : Fin 2, win0_23.index t a * S2000x64.size a ≤ (i a).val ∧ (i a).val < win0_23.index t a * S2000x64.size a + S2000x64.size a := by
  show i ∈ ((View.whole main_v32_1).slice (win0_23.rect t)).set ↔ _
  rw [View.set_slice_whole, Rect.mem_set_unit]
  exact Iff.rfl

/-- Row `r` lies in the band of point `r / 2000`. -/
theorem cover22 (i : S500000x64.Idx) : ∃ t : Fin cfg0.N, (cfg0.win 22).flush t = true ∧ i ∈ ((cfg0.win 22).blk t).view.set := by
  have hi0 : (i 0).val < 500000 := (i 0).isLt
  have hi1 : (i 1).val < 64 := (i 1).isLt
  have hq : (i 0).val / 2000 < cfg0.N := lt_of_lt_of_eq (by omega : (i 0).val / 2000 < 250) (N_0 : cfg0.N = 250).symm
  obtain ⟨e0, e1⟩ := (idx_rows ⟨(i 0).val / 2000, hq⟩).2.2.2.2.1
  refine ⟨⟨(i 0).val / 2000, hq⟩, flush0_22 _, ?_⟩
  rw [mem_blk22]
  intro a
  match a with
  | ⟨0, _⟩ =>
    show win0_22.index ⟨(i 0).val / 2000, hq⟩ (0 : Fin 2) * 2000 ≤ (i 0).val ∧ (i 0).val < win0_22.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win0_22.index ⟨(i 0).val / 2000, hq⟩ (1 : Fin 2) * 64 ≤ (i 1).val ∧ (i 1).val < win0_22.index ⟨(i 0).val / 2000, hq⟩ (1 : Fin 2) * 64 + 64
    omega

theorem cover23 (i : S500000x64.Idx) : ∃ t : Fin cfg0.N, (cfg0.win 23).flush t = true ∧ i ∈ ((cfg0.win 23).blk t).view.set := by
  have hi0 : (i 0).val < 500000 := (i 0).isLt
  have hi1 : (i 1).val < 64 := (i 1).isLt
  have hq : (i 0).val / 2000 < cfg0.N := lt_of_lt_of_eq (by omega : (i 0).val / 2000 < 250) (N_0 : cfg0.N = 250).symm
  obtain ⟨e0, e1⟩ := (idx_rows ⟨(i 0).val / 2000, hq⟩).2.2.2.2.2
  refine ⟨⟨(i 0).val / 2000, hq⟩, flush0_23 _, ?_⟩
  rw [mem_blk23]
  intro a
  match a with
  | ⟨0, _⟩ =>
    show win0_23.index ⟨(i 0).val / 2000, hq⟩ (0 : Fin 2) * 2000 ≤ (i 0).val ∧ (i 0).val < win0_23.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win0_23.index ⟨(i 0).val / 2000, hq⟩ (1 : Fin 2) * 64 ≤ (i 1).val ∧ (i 1).val < win0_23.index ⟨(i 0).val / 2000, hq⟩ (1 : Fin 2) * 64 + 64
    omega

/-- After the region the first output array holds the updated edge features, the second the messages. -/
theorem final22 (c : Dev nD) : (dats m 0 c).arrAt 22 cfg0.N = edgeV m c :=
  (dats m 0 c).arrAt_eq_of_cover 22 (edgeV m c) (fun t _ => flushed22 m c t) cover22
theorem final23 (c : Dev nD) : (dats m 0 c).arrAt 23 cfg0.N = messV m c :=
  (dats m 0 c).arrAt_eq_of_cover 23 (messV m c) (fun t _ => flushed23 m c t) cover23

end Cert.KernelIdeal.KValue

end
-- ==== Proof.KernelRun.lean ====
/-
  The idealized kernel program's run, with both results named.

  The first result is the first output array of the call: the updated edge features of all edges, the rows gathered
  for each edge's end nodes being what the lines before the call left. The second result is computed by the lines after
  the call from the second output array, the messages: they are scatter-added into a zero array at each edge's
  destination node and the node features are added.
-/
import proofs.«132257_j10677288698373_1_alg».proof.Proof.KernelValue

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Body Cert.Lib.Rowwise Cert.Spec

variable (m : (ℓ : Loc nD τ sig) → Buf (Elt Ideal) ℓ) (ρ : Dev nD → PrngReg)

/-- The layer's inputs as the program's argument arrays. -/
def inputs (c : Dev nD) : Inputs :=
  ⟨wE m c, wN m c, m ((c : Thread nD τ).loc main_arg18), m ((c : Thread nD τ).loc main_arg19),
   m ((c : Thread nD τ).loc main_arg20), m ((c : Thread nD τ).loc main_arg21), m ((c : Thread nD τ).loc main_arg22)⟩

/-- A node index as jnp reads it: a negative index counts from the end. As a column of row indices. -/
def wrapIdx (i : IVec S500000 32) : IVec S500000x1 32 :=
  broadcastInDim S500000x1 ![0] bcast_S500000_S500000x1_0
    (select (cmpi .slt i (broadcastInDim S500000 ![] bcast_S_S500000 (constantI S_ 32 0#32)))
      (addi i (broadcastInDim S500000 ![] bcast_S_S500000 (constantI S_ 32 50000#32))) i)

/-- The node rows gathered for every edge. -/
def rowsOf (nf : Mat 50000 64) (i : IVec S500000 32) : Mat 500000 64 :=
  Host.gather gather_S50000x64_S500000x1_S500000x64_1_0_n_n_0_1_164 nf (wrapIdx i)

/-- The first result: the updated edge features. -/
def edgeOf (I : Inputs) : Mat 500000 64 := edgeOut I.E (rowsOf I.nf I.src) (rowsOf I.nf I.dst) I.ef I.rbf
/-- The messages. -/
def messOf (I : Inputs) : Mat 500000 64 := mess I.E I.N (rowsOf I.nf I.src) (rowsOf I.nf I.dst) I.ef I.rbf
/-- The second result: the node features plus the messages summed at their destination nodes. -/
def nodeOf (I : Inputs) : Mat 50000 64 :=
  addf (F := Ideal) (φ := .f32) I.nf
    (Host.scatterAdd scatter_S50000x64_S500000x1_S500000x64_1_0_0_1
      (broadcastInDim S50000x64 ![] bcast_S_S50000x64 (constant (F := Ideal) S_ .f32 0x00000000#32))
      (broadcastInDim S500000x1 ![0] bcast_S500000_S500000x1_0 I.dst) (messOf I))

set_option maxHeartbeats 1000000 in
theorem aVi_eq (c : Dev nD) : aVi m c = rowsOf (inputs m c).nf (inputs m c).src := by
  show StableHlo.after hostOps0 (fun b => m (c, b)) (Proc.devRef .tc main_v6) = _; after_results_simp; rfl
set_option maxHeartbeats 1000000 in
theorem aVj_eq (c : Dev nD) : aVj m c = rowsOf (inputs m c).nf (inputs m c).dst := by
  show StableHlo.after hostOps0 (fun b => m (c, b)) (Proc.devRef .tc main_v13) = _; after_results_simp; rfl
theorem aEf_eq (c : Dev nD) : aEf m c = (inputs m c).ef := V_main_arg19 m c
theorem aRbf_eq (c : Dev nD) : aRbf m c = (inputs m c).rbf := V_main_arg20 m c

theorem edgeV_eq (c : Dev nD) : edgeV m c = edgeOf (inputs m c) := by
  unfold edgeV edgeOf; rw [aVi_eq, aVj_eq, aEf_eq, aRbf_eq]; rfl
theorem messV_eq (c : Dev nD) : messV m c = messOf (inputs m c) := by
  unfold messV messOf; rw [aVi_eq, aVj_eq, aEf_eq, aRbf_eq]; rfl

/-- The lines after the call, read at the second result. -/
theorem tail36 (c : Dev nD) :
    Pipeline.afterTail₀ cfgs (dats m) 0 (V0 m) [hostOps1] c main_v36 = nodeOf (inputs m c) := by
  unfold Pipeline.afterTail₀
  show StableHlo.after hostOps1 _ (Proc.devRef .tc main_v36) = _
  after_results
  have h23 : Pipeline.withArrays (cfgs 0).spec c (V0 m c) (fun w => (dats m 0 c).arrAt w (cfgs 0).N) (Proc.devRef .tc main_v32_1)
      = messOf (inputs m c) :=
    (Pipeline.withArrays_arr spec0 launch0.win.arr_inj c _ _ 23).trans ((final23 m c).trans (messV_eq m c))
  have h18 : Pipeline.withArrays (cfgs 0).spec c (V0 m c) (fun w => (dats m 0 c).arrAt w (cfgs 0).N) (Proc.devRef .tc main_arg18)
      = (inputs m c).nf :=
    (Pipeline.withArrays_of_ne spec0 c _ _ main_arg18 (by decide)).trans (V_main_arg18 m c)
  have h22 : Pipeline.withArrays (cfgs 0).spec c (V0 m c) (fun w => (dats m 0 c).arrAt w (cfgs 0).N) (Proc.devRef .tc main_arg22)
      = (inputs m c).dst :=
    (Pipeline.withArrays_of_ne spec0 c _ _ main_arg22 (by decide)).trans (V_main_arg22 m c)
  rw [h23, h18, h22]
  rfl

/-- THE RUN of the idealized kernel program: every weakly fair execution terminates with the first result at the
    updated edge features, the second at the updated node features, and the argument arrays as they were. -/
theorem run : θ_run defs (onTc (τ := τ) (main (F := Ideal))) ⟨m, fun _ => 0, ρ⟩ fun r => ∀ c : Dev nD,
      r.2.mem ((c.tc : Thread nD τ).loc main_v32_0) = edgeOf (inputs m c)
      ∧ r.2.mem ((c.tc : Thread nD τ).loc main_v36) = nodeOf (inputs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨((h c).1 22).trans ((final22 m c).trans (edgeV_eq m c)),
      ((h c).2 main_v36 (Pipeline.mem_restRefs_of main_v36 (by decide) (by decide))).trans (tail36 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      ((h c).1 2).trans (((dats m 0 c).arrAt_in 2 rfl _).trans ((A_eq m c 2).trans (V_main_arg19 m c))),
      ((h c).1 3).trans (((dats m 0 c).arrAt_in 3 rfl _).trans ((A_eq m c 3).trans (V_main_arg20 m c))),
      (((h c).2 main_arg21 (Pipeline.mem_restRefs_of main_arg21 (by decide) (by decide))).trans (W_main_arg21 m (dats m) c)),
      (((h c).2 main_arg22 (Pipeline.mem_restRefs_of main_arg22 (by decide) (by decide))).trans (W_main_arg22 m (dats m) c))⟩)
    (run_main m ρ)

end Cert.KernelIdeal.KValue

end
-- ==== Proof.LibNary3.lean ====
/-
  A general lemma about the host operation that takes a literal family of THREE operand references (what a
  three-piece concatenation prints to): its result, read at its own result buffer, is its function applied to the
  three operands' contents, each AT ITS OWN REFERENCE. The library states the same for a family of four; for three
  it has only the form with the family under a binder, where no later rewriting can reach the operands' contents.
  With it, one simplification pass that reads a straight line of host operations at a buffer, as the library's does,
  with this lemma in the place of the binder form.
-/
import Idealize.ShloMosaic.Lib.StableHlo.Run

noncomputable section

namespace Idealize.ShloMosaic.StableHlo

variable {τ : Topo} {sig : RefSig} {Val : EltTy → Type}
variable {x a b y : Ref sig .tc}

/-- A host operation over the literal family of three references `![x, a, b]`: what it leaves at its result buffer is its
    function at the three operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, its result reference left out of the simplifier's index (the form a simplification pass can use). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- Reads `after ops V` at a buffer for a literal list of host operations, in one simplification pass: each operation's
    result at its own buffer is its function's value, at any other reference what was there; an operation over a literal
    family of three references is read by `nary3_result'`. -/
macro "after_results3" : tactic =>
  `(tactic| (simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.RefConcat.lean ====
/-
  The reference program's two three-piece concatenations, read at their result buffers.

  Each lays three matrices with one row per edge side by side: the rows gathered for the two end nodes and the edge
  features (first the given ones, then the updated ones). Read at its own result buffer, such an operation is the three
  side by side of what its three operand buffers hold, each operand named at its own reference, so that a reading of
  the whole line of host operations goes on into the operands.
-/
import proofs.«132257_j10677288698373_1_alg».proof.Proof.Gen.ReferenceIdeal
import proofs.«132257_j10677288698373_1_alg».proof.Proof.LibNary3

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- Three matrices of one row per edge laid side by side. -/
def cat3 (a b c : (⟨S500000x64, .f32⟩ : BufTy).Contents (Elt F)) : (⟨S500000x192, .f32⟩ : BufTy).Contents (Elt F) :=
  concatenate S500000x192 1 [⟨S500000x64, a⟩, ⟨S500000x64, b⟩, ⟨S500000x64, c⟩] concatenates_S500000x64_S500000x64_S500000x64_S500000x192_d1

/-- The first three-piece concatenation, read at its result buffer: each operand at its own reference. -/
theorem concat_v14 (hxs hy) (G : Valuation τ sig (Elt F)) :
    (nary (τ := τ) ![main_v6, main_v13, main_arg19] main_v14
        (fun u => concatenate S500000x192 1 [⟨S500000x64, u 0⟩, ⟨S500000x64, u 1⟩, ⟨S500000x64, u 2⟩] concatenates_S500000x64_S500000x64_S500000x64_S500000x192_d1)
        hxs hy).result G (no_index (Proc.devRef .tc main_v14))
      = cat3 (G (Proc.devRef .tc main_v6)) (G (Proc.devRef .tc main_v13)) (G (Proc.devRef .tc main_arg19)) := by
  rw [nary3_result']; rfl

/-- The second, over the updated edge features. -/
theorem concat_v44 (hxs hy) (G : Valuation τ sig (Elt F)) :
    (nary (τ := τ) ![main_v6, main_v13, main_v43] main_v44
        (fun u => concatenate S500000x192 1 [⟨S500000x64, u 0⟩, ⟨S500000x64, u 1⟩, ⟨S500000x64, u 2⟩] concatenates_S500000x64_S500000x64_S500000x64_S500000x192_d1)
        hxs hy).result G (no_index (Proc.devRef .tc main_v44))
      = cat3 (G (Proc.devRef .tc main_v6)) (G (Proc.devRef .tc main_v13)) (G (Proc.devRef .tc main_v43)) := by
  rw [nary3_result']; rfl

macro "after_results_c" : tactic =>
  `(tactic| (simp (disch := decide) only [after_cons, after_nil,
      nullary_result', unary_result', binary_result', ternary_result', quaternary_result', reshape_result', concat_v14, concat_v44,
      unaryIndexed_result', binaryIndexed_result',
      nullary_result_ne', unary_result_ne', binary_result_ne', ternary_result_ne', quaternary_result_ne', reshape_result_ne',
      nary_result_ne', unaryIndexed_result_ne', binaryIndexed_result_ne', TRef.ofBuf, TRef.toBuf, cast_eq]))

end Cert.ReferenceIdeal.Value

end
-- ==== Proof.RefValue.lean ====
/-
  The idealized reference program's two results, as the layer's functions of the argument arrays.

  The reference computes the layer on all 500000 edges at once. Its run leaves each result at the composed term of its
  operations; read with the host's matrix product as the matrix product, its two-step broadcast of a bias as the bias
  laid along every row, its concatenation as three matrices side by side and its expansion of the logistic function as
  that function, the first term is the updated edge features and the second the node features plus the scatter-added
  messages.
-/
import proofs.«132257_j10677288698373_1_alg».proof.Proof.RefRun
import proofs.«132257_j10677288698373_1_alg».proof.Proof.Spec

set_option maxRecDepth 16384

noncomputable section

namespace Cert.ReferenceIdeal.RValue

open Idealize.ShloMosaic Idealize.ShloMosaic.TcCoe Idealize.SL.Sem
open Cert.ReferenceIdeal Cert.ReferenceIdeal.Gen Cert.ReferenceIdeal.Value Cert.Lib.Rowwise Cert.Spec

variable (m : (ℓ : Loc nD τ sig) → Buf (Elt Ideal) ℓ)

/-- The layer's inputs as the program's argument arrays. -/
def inputs (c : Dev nD) : Inputs :=
  ⟨⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8)⟩,
   ⟨m ((c.tc : Thread nD τ).loc main_arg9), m ((c.tc : Thread nD τ).loc main_arg10), m ((c.tc : Thread nD τ).loc main_arg11),
    m ((c.tc : Thread nD τ).loc main_arg12), m ((c.tc : Thread nD τ).loc main_arg13), m ((c.tc : Thread nD τ).loc main_arg14),
    m ((c.tc : Thread nD τ).loc main_arg15), m ((c.tc : Thread nD τ).loc main_arg16), m ((c.tc : Thread nD τ).loc main_arg17)⟩,
   m ((c.tc : Thread nD τ).loc main_arg18), m ((c.tc : Thread nD τ).loc main_arg19), m ((c.tc : Thread nD τ).loc main_arg20),
   m ((c.tc : Thread nD τ).loc main_arg21), m ((c.tc : Thread nD τ).loc main_arg22)⟩

/-- A node index as jnp reads it: a negative index counts from the end. As a column of row indices. -/
def wrapIdx (i : IVec S500000 32) : IVec S500000x1 32 :=
  broadcastInDim S500000x1 ![0] bcast_S500000_S500000x1_0
    (select (cmpi .slt i (broadcastInDim S500000 ![] bcast_S_S500000 (constantI S_ 32 0#32)))
      (addi i (broadcastInDim S500000 ![] bcast_S_S500000 (constantI S_ 32 50000#32))) i)

/-- The node rows gathered for every edge. -/
def rowsOf (nf : Mat 50000 64) (i : IVec S500000 32) : Mat 500000 64 :=
  Host.gather gather_S50000x64_S500000x1_S500000x64_1_0_n_n_0_1_164 nf (wrapIdx i)

/-- The first result: the updated edge features. -/
def edgeOf (I : Inputs) : Mat 500000 64 := edgeOut I.E (rowsOf I.nf I.src) (rowsOf I.nf I.dst) I.ef I.rbf
/-- The messages. -/
def messOf (I : Inputs) : Mat 500000 64 := mess I.E I.N (rowsOf I.nf I.src) (rowsOf I.nf I.dst) I.ef I.rbf
/-- The second result: the node features plus the messages summed at their destination nodes. -/
def nodeOf (I : Inputs) : Mat 50000 64 :=
  addf (F := Ideal) (φ := .f32) I.nf
    (Host.scatterAdd scatter_S50000x64_S500000x1_S500000x64_1_0_0_1
      (broadcastInDim S50000x64 ![] bcast_S_S50000x64 (constant (F := Ideal) S_ .f32 0x00000000#32))
      (broadcastInDim S500000x1 ![0] bcast_S500000_S500000x1_0 I.dst) (messOf I))

theorem dot192 : dot_S500000x192_S192x64_S500000x64_1_0_0_1_n_n = DotDims.plain 500000 192 64 := rfl
theorem dot64 : dot_S500000x64_S64x64_S500000x64_1_0_0_1_n_n = DotDims.plain 500000 64 64 := rfl
theorem dot9 : dot_S500000x9_S9x64_S500000x64_1_0_0_1_n_n = DotDims.plain 500000 9 64 := rfl

set_option maxHeartbeats 4000000 in
/-- The run's first term is the updated edge features. -/
theorem res0_eq (c : Dev nD) : res_out0 (F := Ideal) m c = edgeOf (inputs m c) := by
  show res_main_v43 (F := Ideal) m c = _
  unfold res_main_v43
  simp only [hostDot_eq_prod _ dot192, hostDot_eq_prod _ dot64, hostDot_eq_prod _ dot9,
    concat3_eq_join3 (n := 64) (m := 192) rfl, mulf_eq_hmul, addf_eq_hadd]
  repeat rw [hostBias_eq]
  repeat rw [hostSigm_eq']
  simp only [hmul_sigm, hadd_rowBias]
  rfl

set_option maxHeartbeats 4000000 in
/-- The run's second term is the node features plus the scatter-added messages. -/
theorem res1_eq (c : Dev nD) : res_out1 (F := Ideal) m c = nodeOf (inputs m c) := by
  show res_main_v76 (F := Ideal) m c = _
  unfold res_main_v76
  simp only [hostDot_eq_prod _ dot192, hostDot_eq_prod _ dot64, hostDot_eq_prod _ dot9,
    concat3_eq_join3 (n := 64) (m := 192) rfl, mulf_eq_hmul, addf_eq_hadd]
  repeat rw [hostBias_eq]
  repeat rw [hostSigm_eq']
  simp only [hmul_sigm, hadd_rowBias]
  rfl

end Cert.ReferenceIdeal.RValue

end
-- ==== Proof.lean ====
/-
  The gated message-passing layer computed band by band by a kernel, against the same layer computed on all edges at
  once: both programs' results are one function of the argument arrays.

  Per edge, the layer takes the gathered features of the edge's two end nodes, the edge's features and its radial basis
  values through a gated two-layer perceptron scaled by a linear image of the radial basis values; this is added to the
  edge features, and the same expression with a second weight set, at the updated edge features, is the edge's message.
  The messages are summed at their destination nodes and added to the node features. The kernel does the per-edge part
  for 2000 edges per grid point, with operands in a shorter float format; on the extended reals the change of format is
  the identity, and the per-edge part treats every row alike, so the 250 bands the kernel writes are the bands of the
  whole result the reference computes. The gathers before the call and the scatter-add after it are the same host
  operations in both programs.

  The two frames of the kernel programs are the generated ones; the reference's frame is its generated run with the
  results dropped; the idealization changed nothing, so there is nothing to preserve.
-/
import proofs.«132257_j10677288698373_1_alg».proof.Defs
import proofs.«132257_j10677288698373_1_alg».proof.Proof.Gen.Kernel
import proofs.«132257_j10677288698373_1_alg».proof.Proof.Gen.Kernel.Skeleton
import proofs.«132257_j10677288698373_1_alg».proof.Proof.Gen.Kernel.Launch
import proofs.«132257_j10677288698373_1_alg».proof.Proof.Gen.Kernel.Points
import proofs.«132257_j10677288698373_1_alg».proof.Proof.Gen.Kernel.Frame
import proofs.«132257_j10677288698373_1_alg».proof.Proof.Gen.KernelIdeal
import proofs.«132257_j10677288698373_1_alg».proof.Proof.Gen.KernelIdeal.Skeleton
import proofs.«132257_j10677288698373_1_alg».proof.Proof.Gen.KernelIdeal.Launch
import proofs.«132257_j10677288698373_1_alg».proof.Proof.Gen.KernelIdeal.Points
import proofs.«132257_j10677288698373_1_alg».proof.Proof.Gen.KernelIdeal.Frame
import proofs.«132257_j10677288698373_1_alg».proof.Proof.Gen.ReferenceIdeal
import proofs.«132257_j10677288698373_1_alg».proof.Proof.Gen.Pre_finite_inputs
import proofs.«132257_j10677288698373_1_alg».proof.Proof.KernelRun
import proofs.«132257_j10677288698373_1_alg».proof.Proof.RefValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs gather the node rows and scatter-add the messages by the same host operations. -/
theorem edge_same (I : Cert.Spec.Inputs) : Cert.ReferenceIdeal.RValue.edgeOf I = Cert.KernelIdeal.KValue.edgeOf I := rfl
theorem node_same (I : Cert.Spec.Inputs) : Cert.ReferenceIdeal.RValue.nodeOf I = Cert.KernelIdeal.KValue.nodeOf I := rfl

/-- From memories that agree on the arguments both programs end with the updated edge features and the updated node
    features of the same inputs. -/
theorem algebraic : Cert.algebraic_KernelIdeal_ReferenceIdeal := by
  intro m ρ m' ρ' _ hagree
  have hI : ∀ c, Cert.ReferenceIdeal.RValue.inputs m' c = Cert.KernelIdeal.KValue.inputs m c := by
    intro c
    obtain ⟨h0, h1, h2, h3, h4, h5, h6, h7, h8, h9, h10, h11, h12, h13, h14, h15, h16, h17, h18, h19, h20, h21, h22⟩ := hagree c
    unfold Cert.ReferenceIdeal.RValue.inputs
    rw [h0, h1, h2, h3, h4, h5, h6, h7, h8, h9, h10, h11, h12, h13, h14, h15, h16, h17, h18, h19, h20, h21, h22]
    rfl
  refine ⟨fun c => Cert.KernelIdeal.KValue.edgeOf (Cert.KernelIdeal.KValue.inputs m c),
    fun c => Cert.KernelIdeal.KValue.nodeOf (Cert.KernelIdeal.KValue.inputs m c), Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · exact (Cert.ReferenceIdeal.RValue.res0_eq m' c).trans ((congrArg Cert.ReferenceIdeal.RValue.edgeOf (hI c)).trans (edge_same _))
  · exact (Cert.ReferenceIdeal.RValue.res1_eq m' c).trans ((congrArg Cert.ReferenceIdeal.RValue.nodeOf (hI c)).trans (node_same _))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
